-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000 : Shape := ⟨1, ![50000]⟩
abbrev S800000 : Shape := ⟨1, ![800000]⟩
abbrev S128x96 : Shape := ⟨2, ![128, 96]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x96 : S_.BroadcastsInDim S128x96 (![] : Fin 0 → Fin S128x96.rank)
  reducesTo_S128x96_S_d0_1 : S128x96.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x128 .f32) (main_arg10 : FVec F S1x128 .f32) (main_arg11 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x96 .f32) (main_arg7 : FVec F S128x128 .f32) (main_arg8 : FVec F S128 .f32) (main_arg9 : FVec F S128x128 .f32) (main_arg10 : FVec F S1x128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x96 .f32 := Host.absf main_arg6
  let main_cst_6 : FVec F S_ .f32 := constant S_ .f32 0x7F800000#32
  let main_v20 : FVec F S128x96 .f32 := broadcastInDim S128x96 ![] bcast_S_S128x96 main_cst_6
  let main_v21 : IVec S128x96 1 := cmpf .olt main_v19 main_v20
  let main_c_7 : IVec S_ 1 := constantI S_ 1 1#1
  let main_v22 : IVec S_ 1 := (fun x v => Host.reduce IntOp.andi x v reducesTo_S128x96_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x96 .f32) (main_arg1 : IVec S2x800000 32) (main_arg2 : IVec S50000 32) (main_arg3 : FVec F S800000 .f32) (main_arg4 : FVec F S128x96 .f32) (main_arg5 : FVec F S128 .f32) (main_arg6 : FVec F S128x96 .f32) (main_arg7 : FVec F S128x128 .f32) (main_arg8 : FVec F S128 .f32) (main_arg9 : FVec F S128x128 .f32) (main_arg10 : FVec F S1x128 .f32) (main_arg11 : FVec F S1 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x96 .f32 := Host.absf main_arg4
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x96 : Shape := ⟨2, ![50000, 96]⟩
abbrev S2x800000 : Shape := ⟨2, ![2, 800000]⟩
abbrev S50000 : Shape := ⟨1, ![50000]⟩
abbrev S800000 : Shape := ⟨1, ![800000]⟩
abbrev S128x96 : Shape := ⟨2, ![128, 96]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x128 : Shape := ⟨2, ![50000, 128]⟩
abbrev S2000x96 : Shape := ⟨2, ![2000, 96]⟩
abbrev S2000x128 : Shape := ⟨2, ![2000, 128]⟩
abbrev S800000x128 : Shape := ⟨2, ![800000, 128]⟩
abbrev S256 : Shape := ⟨1, ![256]⟩
abbrev S50000x1 : Shape := ⟨2, ![50000, 1]⟩
abbrev S1x256 : Shape := ⟨2, ![1, 256]⟩
abbrev S50000x256 : Shape := ⟨2, ![50000, 256]⟩
abbrev S256x1 : Shape := ⟨2, ![256, 1]⟩
abbrev S2000x256 : Shape := ⟨2, ![2000, 256]⟩
abbrev S256x128 : Shape := ⟨2, ![256, 128]⟩
abbrev S1x1 : Shape := ⟨2, ![1, 1]⟩

abbrev nBuf : Space → Nat
  | .hbm => 68
  | .vmem => 27
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x96, .f32⟩
  | .hbm, ⟨5, _⟩ => ⟨S128, .f32⟩
  | .hbm, ⟨6, _⟩ => ⟨S128x96, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x128, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x96, .f32⟩
  | .hbm, ⟨25, _⟩ => ⟨S800000x1, .f32⟩
  | .hbm, ⟨26, _⟩ => ⟨S800000x96, .f32⟩
  | .hbm, ⟨27, _⟩ => ⟨S800000x96, .f32⟩
  | .hbm, ⟨28, _⟩ => ⟨S_, .f32⟩
  | .hbm, ⟨29, _⟩ => ⟨S50000x96, .f32⟩
  | .hbm, ⟨30, _⟩ => ⟨S800000x1, .i32⟩
  | .hbm, ⟨31, _⟩ => ⟨S50000x96, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S256, .i32⟩
  | .hbm, ⟨51, _⟩ => ⟨S50000x1, .i32⟩
  | .hbm, ⟨52, _⟩ => ⟨S1x256, .i32⟩
  | .hbm, ⟨53, _⟩ => ⟨S50000x256, .i32⟩
  | .hbm, ⟨54, _⟩ => ⟨S50000x256, .i32⟩
  | .hbm, ⟨55, _⟩ => ⟨S50000x256, .i1⟩
  | .hbm, ⟨56, _⟩ => ⟨S50000x256, .f32⟩
  | .hbm, ⟨57, _⟩ => ⟨S_, .f32⟩
  | .hbm, ⟨58, _⟩ => ⟨S50000, .f32⟩
  | .hbm, ⟨59, _⟩ => ⟨S_, .f32⟩
  | .hbm, ⟨60, _⟩ => ⟨S256, .f32⟩
  | .hbm, ⟨61, _⟩ => ⟨S50000x1, .i32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256x1, .f32⟩
  | .hbm, ⟨67, _⟩ => ⟨S256x1, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S128x96, .f32⟩
  | .local _ .vmem, ⟨5, _⟩ => ⟨S128, .f32⟩
  | .local _ .vmem, ⟨6, _⟩ => ⟨S128x96, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x256, .f32⟩
  | .local _ .vmem, ⟨19, _⟩ => ⟨S2000x256, .f32⟩
  | .local _ .vmem, ⟨20, _⟩ => ⟨S2000x128, .f32⟩
  | .local _ .vmem, ⟨21, _⟩ => ⟨S2000x128, .f32⟩
  | .local _ .vmem, ⟨22, _⟩ => ⟨S256x1, .f32⟩
  | .local _ .vmem, ⟨23, _⟩ => ⟨S1x128, .f32⟩
  | .local _ .vmem, ⟨24, _⟩ => ⟨S1, .f32⟩
  | .local _ .vmem, ⟨25, _⟩ => ⟨S256x1, .f32⟩
  | .local _ .vmem, ⟨26, _⟩ => ⟨S256x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v15 : BitVec 1 := Scalar.cmpi .eq arg0 c24_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S50000_S50000x1_0 : S50000.BroadcastsInDim S50000x1 (![0] : Fin 1 → Fin S50000x1.rank)
  bcast_S256_S1x256_1 : S256.BroadcastsInDim S1x256 (![1] : Fin 1 → Fin S1x256.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S_S50000 : S_.BroadcastsInDim S50000 (![] : Fin 0 → Fin S50000.rank)
  bcast_S_S256 : S_.BroadcastsInDim S256 (![] : Fin 0 → Fin S256.rank)
  shapeCasts_S256_S256x1 : S256.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S1x128_S1x128_0_0 : ∀ a, (![0, 0] : Fin 2 → Nat) a + S1x128.size a ≤ S1x128.size a
  h_S1x128 : 0 < S1x128.numel
  broadcasts_S1x128_S256x128 : S1x128.Broadcasts S256x128
  reduces_S256x128_S256 : S256x128.Reduces [1] S256
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S128x96_S2000x128_1_1_0_0_n_n_wf : DotDims.WF S2000x96 S128x96 S2000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_1_0_0_n_n_wf : DotDims.WF S2000x128 S128x128 S2000x128 [1] [1] [0] [0] [] []
  scatter_S256_S50000x1_S50000_n_0_0_1_wf : ScatterDims.WF S256 S50000x1 S50000 [] [0] [0] 1
  dot_S2000x256_S2000x128_S256x128_0_0_1_1_n_n_wf : DotDims.WF S2000x256 S2000x128 S256x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x96.size a ≤ S128x96.size a
  hwx0_2 : ∀ i : grid0.Coords, EltTy.bits .f32 = 32 ∨ (Rect.block (s := S128x96) S128x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x96.size a ≤ S128x96.size a
  hwx0_4 : ∀ i : grid0.Coords, EltTy.bits .f32 = 32 ∨ (Rect.block (s := S128x96) S128x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S256x1.size a
  hwx2_2 : ∀ i : grid2.Coords, EltTy.bits .f32 = 32 ∨ (Rect.block (s := S256x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S128x96_S2000x128_1_1_0_0_n_n : DotDims S2000x96 S128x96 S2000x128 where
  lhsContracting := [1]
  rhsContracting := [1]
  lhsNonContracting := [0]
  rhsNonContracting := [0]
  lhsBatch := []
  rhsBatch := []
  wf := dot_S2000x96_S128x96_S2000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf

abbrev win0_0 : Pipeline.Window sig grid0 :=
  Pipeline.Window.ofSpec (Memref.whole main_v16) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S256x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S256x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S50000x96 : Shape := ⟨2, ![50000, 96]⟩
abbrev S2x800000 : Shape := ⟨2, ![2, 800000]⟩
abbrev S50000 : Shape := ⟨1, ![50000]⟩
abbrev S800000 : Shape := ⟨1, ![800000]⟩
abbrev S128x96 : Shape := ⟨2, ![128, 96]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S96x128 : Shape := ⟨2, ![96, 128]⟩
abbrev S50000x128 : Shape := ⟨2, ![50000, 128]⟩
abbrev S800000x128 : Shape := ⟨2, ![800000, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S128x1 : Shape := ⟨2, ![128, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000, .i32⟩
  | .hbm, ⟨3, _⟩ => ⟨S800000, .f32⟩
  | .hbm, ⟨4, _⟩ => ⟨S128x96, .f32⟩
  | .hbm, ⟨5, _⟩ => ⟨S128, .f32⟩
  | .hbm, ⟨6, _⟩ => ⟨S128x96, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S1x128, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x96, .f32⟩
  | .hbm, ⟨25, _⟩ => ⟨S800000x1, .f32⟩
  | .hbm, ⟨26, _⟩ => ⟨S800000x96, .f32⟩
  | .hbm, ⟨27, _⟩ => ⟨S800000x96, .f32⟩
  | .hbm, ⟨28, _⟩ => ⟨S_, .f32⟩
  | .hbm, ⟨29, _⟩ => ⟨S50000x96, .f32⟩
  | .hbm, ⟨30, _⟩ => ⟨S800000x1, .i32⟩
  | .hbm, ⟨31, _⟩ => ⟨S50000x96, .f32⟩
  | .hbm, ⟨32, _⟩ => ⟨S96x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S96x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S256x128, .f32⟩
  | .hbm, ⟨69, _⟩ => ⟨S50000x1, .i32⟩
  | .hbm, ⟨70, _⟩ => ⟨S256x128, .f32⟩
  | .hbm, ⟨71, _⟩ => ⟨S_, .f32⟩
  | .hbm, ⟨72, _⟩ => ⟨S50000, .f32⟩
  | .hbm, ⟨73, _⟩ => ⟨S_, .f32⟩
  | .hbm, ⟨74, _⟩ => ⟨S256, .f32⟩
  | .hbm, ⟨75, _⟩ => ⟨S50000x1, .i32⟩
  | .hbm, ⟨76, _⟩ => ⟨S256, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S256x1, .f32⟩
  | .hbm, ⟨81, _⟩ => ⟨S256x128, .f32⟩
  | .hbm, ⟨82, _⟩ => ⟨S256x128, .f32⟩
  | .hbm, ⟨83, _⟩ => ⟨S128x1, .f32⟩
  | .hbm, ⟨84, _⟩ => ⟨S256x1, .f32⟩
  | .hbm, ⟨85, _⟩ => ⟨S1x1, .f32⟩
  | .hbm, ⟨86, _⟩ => ⟨S256x1, .f32⟩
  | .hbm, ⟨87, _⟩ => ⟨S256x1, .f32⟩
  | .hbm, ⟨88, _⟩ => ⟨S_, .f32⟩
  | .hbm, ⟨89, _⟩ => ⟨S256x1, .f32⟩
  | .hbm, ⟨90, _⟩ => ⟨S256x1, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_1 : Ref sig .tc := ⟨.hbm, 43, rfl⟩
abbrev main_v26 : Ref sig .tc := ⟨.hbm, 44, rfl⟩
abbrev main_v27 : Ref sig .tc := ⟨.hbm, 45, rfl⟩
abbrev main_c_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  transposes_S128x96_S96x128_1_0 : S128x96.Transposes [1, 0] S96x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  transposes_S128x128_S128x128_1_0 : S128x128.Transposes [1, 0] S128x128
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  transposes_S1x128_S128x1_1_0 : S1x128.Transposes [1, 0] S128x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x128_S50000x128_1_0_0_1_n_n_wf : DotDims.WF S50000x96 S96x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x1_S256x1_1_0_0_1_n_n_wf : DotDims.WF S256x128 S128x1 S256x1 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.FrameK.Reg0.lean ====
import proofs.«403164_j18090402251169_3_alg».proof.Proof.Gen.Kernel.Launch
import proofs.«403164_j18090402251169_3_alg».proof.Proof.Gen.Kernel.Skeleton
import proofs.«403164_j18090402251169_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first graph convolution's region (pipeline 0), at the contents `V` its entry finds

Every grid point stages one block of 2000 rows of the aggregated messages and of the node features, the two weight
matrices and the bias whole, and stores one block of 2000 output rows: the body's one stored value of the five
input blocks (the two products plus the bias, as the kernel function closes them). -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, whether the point fetches it or not: where it is not
fetched its block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store take a whole buffer -/

abbrev r0_a : Rect S2000x96 := Rect.unit (s := S2000x96) ![0, 0] S2000x96.size inb_S2000x96_S2000x96_0_0
abbrev r0_w : Rect S128x96 := Rect.unit (s := S128x96) ![0, 0] S128x96.size inb_S128x96_S128x96_0_0
abbrev r0_b : Rect S128 := Rect.unit (s := S128) ![0] S128.size inb_S128_S128_0
abbrev r0_o : Rect S2000x128 := Rect.unit (s := S2000x128) ![0, 0] S2000x128.size inb_S2000x128_S2000x128_0_0

/-- What the body leaves in the output window's buffer, from the five input blocks: its one store. -/
def out0_5 (x0 : Vec F S2000x96 .f32) (x1 : Vec F S2000x96 .f32) (x2 : Vec F S128x96 .f32) (x3 : Vec F S128 .f32) (x4 : Vec F S128x96 .f32) : Vec F S2000x128 .f32 :=
  View.canon [⟨r0_o, k0_pay1 (View.ld x0 r0_a) (View.ld x1 r0_a) (View.ld x2 r0_w) (View.ld x4 r0_w) (View.ld x3 r0_b)⟩]

/-- The one store covers the buffer. -/
theorem cover0_5 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 4000000 in
/-- The body on whole staging memrefs, the inputs' at contents `xW` and the output's at anything, ends with the inputs'
    as they were and the output's at `out0_5` of them. -/
theorem sound_kernel0 (c : Dev nD) (E : Set ℕ) (i : grid0.Coords) (arg1 : Memref sig .tc .vmem S2000x96 .f32) (harg1 : arg1.IsWhole) (arg2 : Memref sig .tc .vmem S2000x96 .f32) (harg2 : arg2.IsWhole) (arg3 : Memref sig .tc .vmem S128x96 .f32) (harg3 : arg3.IsWhole) (arg4 : Memref sig .tc .vmem S128 .f32) (harg4 : arg4.IsWhole) (arg5 : Memref sig .tc .vmem S128x96 .f32) (harg5 : arg5.IsWhole) (arg6 : Memref sig .tc .vmem S2000x128 .f32) (harg6 : arg6.IsWhole)
    (x0 : Vec F S2000x96 .f32) (x1 : Vec F S2000x96 .f32) (x2 : Vec F S128x96 .f32) (x3 : Vec F S128 .f32) (x4 : Vec F S128x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__graph_conv_kernel i arg1 harg1 arg2 harg2 arg3 harg3 arg4 harg4 arg5 harg5 arg6 harg6) K := by
  simp only [cc0__graph_conv_kernel_eq_skeleton]; unfold cc0__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameK.Reg1.lean ====
import proofs.«403164_j18090402251169_3_alg».proof.Proof.Gen.Kernel.Launch
import proofs.«403164_j18090402251169_3_alg».proof.Proof.Gen.Kernel.Skeleton
import proofs.«403164_j18090402251169_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second graph convolution's region (pipeline 1), at the contents `V` its entry finds

Every grid point stages one block of 2000 rows of the aggregated messages and of the node features, the two weight
matrices and the bias whole, and stores one block of 2000 output rows: the body's one stored value of the five
input blocks (the two products plus the bias, as the kernel function closes them). -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, whether the point fetches it or not: where it is not
fetched its block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store take a whole buffer -/

abbrev r1_a : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S128 := Rect.unit (s := S128) ![0] S128.size inb_S128_S128_0
abbrev r1_o : Rect S2000x128 := Rect.unit (s := S2000x128) ![0, 0] S2000x128.size inb_S2000x128_S2000x128_0_0

/-- What the body leaves in the output window's buffer, from the five input blocks: its one store. -/
def out1_5 (x0 : Vec F S2000x128 .f32) (x1 : Vec F S2000x128 .f32) (x2 : Vec F S128x128 .f32) (x3 : Vec F S128 .f32) (x4 : Vec F S128x128 .f32) : Vec F S2000x128 .f32 :=
  View.canon [⟨r1_o, k1_pay1 (View.ld x0 r1_a) (View.ld x1 r1_a) (View.ld x2 r1_w) (View.ld x4 r1_w) (View.ld x3 r1_b)⟩]

/-- The one store covers the buffer. -/
theorem cover1_5 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

set_option maxHeartbeats 4000000 in
/-- The body on whole staging memrefs, the inputs' at contents `xW` and the output's at anything, ends with the inputs'
    as they were and the output's at `out1_5` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S2000x128 .f32) (harg6 : arg6.IsWhole)
    (x0 : Vec F S2000x128 .f32) (x1 : Vec F S2000x128 .f32) (x2 : Vec F S128x128 .f32) (x3 : Vec F S128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__graph_conv_kernel i arg1 harg1 arg2 harg2 arg3 harg3 arg4 harg4 arg5 harg5 arg6 harg6) K := by
  simp only [cc1__graph_conv_kernel_eq_skeleton]; unfold cc1__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrameK.Reg2Runs.lean ====
import proofs.«403164_j18090402251169_3_alg».proof.Proof.Gen.Kernel.Launch
import proofs.«403164_j18090402251169_3_alg».proof.Proof.Gen.Kernel.Skeleton
import proofs.«403164_j18090402251169_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (pipeline 2), at the contents `V` its entry finds: what its three runs share

The grid has 25 points. Every point stages one block of 2000 rows of the 0/1 assignment matrix and of the node
features; the three small arrays are staged whole, once. A scratch accumulator of 256x128 is carried from point to
point: the first point resets it to zero, every point adds the product of its two blocks into it, and the last point
reads it back, normalises and reduces it, and stores the one output block, which the other points leave untouched. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's buffer holds its block at every point, whether the point fetches it or not: where it is not
fetched its block index has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first conditional's condition: the point's coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional's condition: the point's coordinate is 24. -/
abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- At the first point the output window is idle: nothing is stored into it, -/
theorem idleAt2_5_A : ∀ t : Fin cfg2.N, cond2_0 (grid2.coords t) → ¬cond2_1 (grid2.coords t) → cfg2.idle 5 (grid2.coords t) = true := by decide +kernel
/-- and its block is not written back. -/
theorem noFlush2_5_A : ∀ t : Fin cfg2.N, cond2_0 (grid2.coords t) → ¬cond2_1 (grid2.coords t) → (cfg2.win 5).flush t = false := by decide +kernel
/-- At a middle point the output window is idle, -/
theorem idleAt2_5_B : ∀ t : Fin cfg2.N, ¬cond2_0 (grid2.coords t) → ¬cond2_1 (grid2.coords t) → cfg2.idle 5 (grid2.coords t) = true := by decide +kernel
/-- and its block is not written back. -/
theorem noFlush2_5_B : ∀ t : Fin cfg2.N, ¬cond2_0 (grid2.coords t) → ¬cond2_1 (grid2.coords t) → (cfg2.win 5).flush t = false := by decide +kernel
/-- At the last point the output window is live: the body stores into it. -/
theorem liveAt2_5_C : ∀ t : Fin cfg2.N, ¬cond2_0 (grid2.coords t) → cond2_1 (grid2.coords t) → cfg2.idle 5 (grid2.coords t) = false := by decide +kernel

/-! ## The memrefs the body runs on -/

/-- The output window's one staging buffer as a view: its contents are stated through it. -/
abbrev VO2_5 : View sig .tc .vmem S256x1 .f32 := (Memref.whole cc2_stg5_0 : Memref sig .tc .vmem S256x1 .f32).view
/-- Each window's current staging memref at point `t`, as the pipeline passes it, and its wholeness. -/
abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x1 .f32 := win2_5.stage (cfg2.slots t 5)
abbrev hs2_5 (t : Fin cfg2.N) : (ms2_5 t).IsWhole := hstage2_5 ((cfg2.slots t 5).cast nbuf2_5)
/-- The scratch accumulator: a whole scoped buffer of the kernel's own, passed beside the windows. -/
abbrev scM2_0 : Memref sig .tc .vmem S256x128 .f32 := Memref.whole cc2_scratch0
/-- The same as a view: what it holds is stated through it. -/
abbrev VS2_0 : View sig .tc .vmem S256x128 .f32 := scM2_0.view

/-- The core's scoped buffers that are no staging buffer of this region, split at the accumulator: it whole at some
    contents, every other one (the other regions' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other regions' scoped buffers, carried unopened through this region. -/
abbrev others2 (c : Dev nD) : sProp 𝕄 :=
  Pipeline.scopedRestBut (Ix := Unit) (Name := ℕ) (U := UR sig nD τ) (Lvl := ℕ) (Val := Elt F) spec2 c [cc2_scratch0]

/-- The region's invariant as the launch hands it over, with the accumulator as a memref owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA; rw [scopedRest2_split]; simp only [scM2_0, owns_whole]; try rfl

end Cert.Kernel.Fr

end
-- ==== Proof.FrameK.Reg2RunA.lean ====
import proofs.«403164_j18090402251169_3_alg».proof.Proof.FrameK.Reg2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST point (the reset taken, the output branch not), on whole memrefs: the inputs' at their
    contents, the idle output's at contents `xi5` handed back untouched, the accumulator at anything; it ends with
    the inputs' as they were and the accumulator with the pieces `LS0` written: the zeros, then the first product
    added to what was read back. The pieces are the witness the run finds. -/
noncomputable def kernelRun2_A (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) :
    Σ' (L5 : List (View.Piece (Elt F) S256x1 .f32)), { LS0 : List (View.Piece (Elt F) S256x128 .f32) //
      ∀ (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, fun xi5 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.FrameK.Reg2RunB.lean ====
import proofs.«403164_j18090402251169_3_alg».proof.Proof.FrameK.Reg2RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point (neither branch taken), on whole memrefs: the inputs' at their contents, the idle
    output's at contents `xi5` handed back untouched, the accumulator at what the point before left, `xs0`; it ends
    with the inputs' as they were and the accumulator with the piece `LS0` written: the product added to `xs0`. -/
noncomputable def kernelRun2_B (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) :
    Σ' (L5 : List (View.Piece (Elt F) S256x1 .f32)), { LS0 : List (View.Piece (Elt F) S256x128 .f32) //
      ∀ (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, fun xi5 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.FrameK.Reg2RunC.lean ====
import proofs.«403164_j18090402251169_3_alg».proof.Proof.FrameK.Reg2RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST point (the reset not taken, the output branch taken), on whole memrefs: the inputs' at their
    contents, the output's at anything, the accumulator at what the point before left, `xs0`; it ends with the
    inputs' as they were, the accumulator with the piece `LS0` written and the output's buffer with the piece `L5`:
    the normalised, weighted and reduced accumulator. -/
noncomputable def kernelRun2_C (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) :
    Σ' (L5 : List (View.Piece (Elt F) S256x1 .f32)), { LS0 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨?_, ?_, fun E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.FrameK.Reg2.lean ====
import proofs.«403164_j18090402251169_3_alg».proof.Proof.FrameK.Reg2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (pipeline 2): what the accumulator and the output hold point by point, the proof data and
the body obligation -/

variable (V : (c : Dev nD) → (b : Ref sig .tc) → Buf (Elt F) ((c : Thread nD τ).loc b))

/-- This point stores nothing into the output (the window is idle and not written back there): no pieces, a
    placeholder that nothing consults. -/
def out2_A_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) : Vec F S256x1 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)

/-- The pieces this point writes into the accumulator cover it. -/
theorem scover2_A_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) (y : S256x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S256x128.size (by sl_kernel_rfl) y

/-- What this point leaves in the accumulator: its pieces read back. -/
def sout2_A_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) : Vec F S256x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

/-- This point stores nothing into the output (the window is idle and not written back there): no pieces, a
    placeholder that nothing consults. -/
def out2_B_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x1 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)

/-- The pieces this point writes into the accumulator cover it. -/
theorem scover2_B_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) (y : S256x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S256x128.size (by sl_kernel_rfl) y

/-- What this point leaves in the accumulator: its pieces read back. -/
def sout2_B_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

/-- The last point's piece for the output tiles its block, so it covers it. -/
theorem cover2_C_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) (y : S256x1.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S256x1.size (by sl_kernel_rfl) y

/-- What the last point leaves in the output's staging buffer: its piece read back. -/
def out2_C_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x1 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)

/-- The pieces this point writes into the accumulator cover it. -/
theorem scover2_C_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) (y : S256x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S256x128.size (by sl_kernel_rfl) y

/-- What this point leaves in the accumulator: its pieces read back. -/
def sout2_C_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

/-! ## The two conditions at the first point and after it -/

theorem cond2_0_zero (hn : 0 < cfg2.N) : cond2_0 (grid2.coords ⟨0, hn⟩) := (hcond2_0 ⟨0, hn⟩).mpr (Nat.zero_mod _)
theorem ncond2_1_zero (hn : 0 < cfg2.N) : ¬cond2_1 (grid2.coords ⟨0, hn⟩) := fun h => by
  have := (hcond2_1 ⟨0, hn⟩).mp h; (try dsimp only at this); omega
theorem ncond2_0_succ (n : ℕ) (hn : n + 1 < cfg2.N) : ¬cond2_0 (grid2.coords ⟨n + 1, hn⟩) := fun h => by
  have hN : n + 1 < 25 := lt_of_lt_of_eq hn (show cfg2.N = 25 from N_2)
  have := (hcond2_0 ⟨n + 1, hn⟩).mp h; (try dsimp only at this); omega

/-! ## What the output's buffer and the accumulator hold after each point -/

/-- THE ACCUMULATION. What the output's staging buffer and the accumulator hold after the body at position `n`: the
    first point runs over an accumulator at anything, every later one over what the point before left in it; the
    last point is the one that also stores the output. -/
def outsAt2 (c : Dev nD) : (n : ℕ) → n < cfg2.N → Vec F S256x1 .f32 × Vec F S256x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (cond2_0_zero hn) (ncond2_1_zero hn) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (cond2_0_zero hn) (ncond2_1_zero hn) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 25 = 24 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at the first point. -/
theorem outsAt2_A (c : Dev nD) (t : Fin cfg2.N) (h0 : t.val % 25 = 0) (h1 : ¬t.val % 25 = 24) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 25 := lt_of_lt_of_eq hn (show cfg2.N = 25 from N_2); (try dsimp only at h0); omega)

/-- `outsAt2` at a middle point: over what the point before left. -/
theorem outsAt2_B (c : Dev nD) (t : Fin cfg2.N) (h0 : ¬t.val % 25 = 0) (h1 : ¬t.val % 25 = 24) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 25 = 0) (h1 : t.val % 25 = 24) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point what the launch hands over (the accumulator at
    anything); afterwards the accumulator at what the point before left in it, the other regions' scoped buffers
    unopened and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant tracks the accumulator
    (`PhiS2`); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which of the three cases the
    point is in; the invariant hands the body the accumulator at what the point before left (at anything at the first
    point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 25 := lt_of_lt_of_eq t.isLt (show cfg2.N = 25 from N_2)
  by_cases h0 : t.val % 25 = 0
  · have h1 : ¬t.val % 25 = 24 := by omega
    have hz : t.val = 0 := by omega
    rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
    rw [outsAt2_A V c t h0 h1]
    unfold sout2_A_0; (try dsimp only)
    rw [PhiS2_castSucc V c t, PhiS2_zero V c _ _ hz, PhiA2_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 25 = 24
    · rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.Kernel.Fr

end
-- ==== Proof.FrameKI.Reg0.lean ====
import proofs.«403164_j18090402251169_3_alg».proof.Proof.Gen.KernelIdeal.Launch
import proofs.«403164_j18090402251169_3_alg».proof.Proof.Gen.KernelIdeal.Skeleton
import proofs.«403164_j18090402251169_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first graph convolution's region (pipeline 0), at the contents `V` its entry finds

Every grid point stages one block of 2000 rows of the aggregated messages and of the node features, the two weight
matrices and the bias whole, and stores one block of 2000 output rows: the body's one stored value of the five
input blocks (the two products plus the bias, as the kernel function closes them). -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's buffer holds its block at every point, whether the point fetches it or not: where it is not
fetched its block index has not moved since the point that fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the one store take a whole buffer -/

abbrev r0_a : Rect S2000x96 := Rect.unit (s := S2000x96) ![0, 0] S2000x96.size inb_S2000x96_S2000x96_0_0
abbrev r0_w : Rect S128x96 := Rect.unit (s := S128x96) ![0, 0] S128x96.size inb_S128x96_S128x96_0_0
abbrev r0_b : Rect S128 := Rect.unit (s := S128) ![0] S128.size inb_S128_S128_0
abbrev r0_o : Rect S2000x128 := Rect.unit (s := S2000x128) ![0, 0] S2000x128.size inb_S2000x128_S2000x128_0_0

/-- What the body leaves in the output window's buffer, from the five input blocks: its one store. -/
def out0_5 (x0 : Vec F S2000x96 .f32) (x1 : Vec F S2000x96 .f32) (x2 : Vec F S128x96 .f32) (x3 : Vec F S128 .f32) (x4 : Vec F S128x96 .f32) : Vec F S2000x128 .f32 :=
  View.canon [⟨r0_o, k0_pay1 (View.ld x0 r0_a) (View.ld x1 r0_a) (View.ld x2 r0_w) (View.ld x4 r0_w) (View.ld x3 r0_b)⟩]

/-- The one store covers the buffer. -/
theorem cover0_5 (p0 : Vec F S2000x128 .f32) (y : S2000x128.Idx) :
    ∃ pc ∈ ([⟨r0_o, p0⟩] : List (View.Piece (Elt F) S2000x128 .f32)), y ∈ pc.1.set :=
  View.cover_of_tiled [⟨r0_o, p0⟩] S2000x128.size (by rfl) y

set_option maxHeartbeats 4000000 in
/-- The body on whole staging memrefs, the inputs' at contents `xW` and the output's at anything, ends with the inputs'
    as they were and the output's at `out0_5` of them. -/
theorem sound_kernel0 (c : Dev nD) (E : Set ℕ) (i : grid0.Coords) (arg1 : Memref sig .tc .vmem S2000x96 .f32) (harg1 : arg1.IsWhole) (arg2 : Memref sig .tc .vmem S2000x96 .f32) (harg2 : arg2.IsWhole) (arg3 : Memref sig .tc .vmem S128x96 .f32) (harg3 : arg3.IsWhole) (arg4 : Memref sig .tc .vmem S128 .f32) (harg4 : arg4.IsWhole) (arg5 : Memref sig .tc .vmem S128x96 .f32) (harg5 : arg5.IsWhole) (arg6 : Memref sig .tc .vmem S2000x128 .f32) (harg6 : arg6.IsWhole)
    (x0 : Vec F S2000x96 .f32) (x1 : Vec F S2000x96 .f32) (x2 : Vec F S128x96 .f32) (x3 : Vec F S128 .f32) (x4 : Vec F S128x96 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__graph_conv_kernel i arg1 harg1 arg2 harg2 arg3 harg3 arg4 harg4 arg5 harg5 arg6 harg6) K := by
  simp only [cc0__graph_conv_kernel_eq_skeleton]; unfold cc0__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameKI.Reg1.lean ====
import proofs.«403164_j18090402251169_3_alg».proof.Proof.Gen.KernelIdeal.Launch
import proofs.«403164_j18090402251169_3_alg».proof.Proof.Gen.KernelIdeal.Skeleton
import proofs.«403164_j18090402251169_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second graph convolution's region (pipeline 1), at the contents `V` its entry finds

Every grid point stages one block of 2000 rows of the aggregated messages and of the node features, the two weight
matrices and the bias whole, and stores one block of 2000 output rows: the body's one stored value of the five
input blocks (the two products plus the bias, as the kernel function closes them). -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds its block at every point, whether the point fetches it or not: where it is not
fetched its block index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store take a whole buffer -/

abbrev r1_a : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S128 := Rect.unit (s := S128) ![0] S128.size inb_S128_S128_0
abbrev r1_o : Rect S2000x128 := Rect.unit (s := S2000x128) ![0, 0] S2000x128.size inb_S2000x128_S2000x128_0_0

/-- What the body leaves in the output window's buffer, from the five input blocks: its one store. -/
def out1_5 (x0 : Vec F S2000x128 .f32) (x1 : Vec F S2000x128 .f32) (x2 : Vec F S128x128 .f32) (x3 : Vec F S128 .f32) (x4 : Vec F S128x128 .f32) : Vec F S2000x128 .f32 :=
  View.canon [⟨r1_o, k1_pay1 (View.ld x0 r1_a) (View.ld x1 r1_a) (View.ld x2 r1_w) (View.ld x4 r1_w) (View.ld x3 r1_b)⟩]

/-- The one store covers the buffer. -/
theorem cover1_5 (p0 : Vec F S2000x128 .f32) (y : S2000x128.Idx) :
    ∃ pc ∈ ([⟨r1_o, p0⟩] : List (View.Piece (Elt F) S2000x128 .f32)), y ∈ pc.1.set :=
  View.cover_of_tiled [⟨r1_o, p0⟩] S2000x128.size (by rfl) y

set_option maxHeartbeats 4000000 in
/-- The body on whole staging memrefs, the inputs' at contents `xW` and the output's at anything, ends with the inputs'
    as they were and the output's at `out1_5` of them. -/
theorem sound_kernel1 (c : Dev nD) (E : Set ℕ) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S2000x128 .f32) (harg6 : arg6.IsWhole)
    (x0 : Vec F S2000x128 .f32) (x1 : Vec F S2000x128 .f32) (x2 : Vec F S128x128 .f32) (x3 : Vec F S128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__graph_conv_kernel i arg1 harg1 arg2 harg2 arg3 harg3 arg4 harg4 arg5 harg5 arg6 harg6) K := by
  simp only [cc1__graph_conv_kernel_eq_skeleton]; unfold cc1__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameKI.Reg2Runs.lean ====
import proofs.«403164_j18090402251169_3_alg».proof.Proof.Gen.KernelIdeal.Launch
import proofs.«403164_j18090402251169_3_alg».proof.Proof.Gen.KernelIdeal.Skeleton
import proofs.«403164_j18090402251169_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (pipeline 2), at the contents `V` its entry finds: what its three runs share

The grid has 25 points. Every point stages one block of 2000 rows of the 0/1 assignment matrix and of the node
features; the three small arrays are staged whole, once. A scratch accumulator of 256x128 is carried from point to
point: the first point resets it to zero, every point adds the product of its two blocks into it, and the last point
reads it back, normalises and reduces it, and stores the one output block, which the other points leave untouched. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's buffer holds its block at every point, whether the point fetches it or not: where it is not
fetched its block index has not moved since the point that fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- The first conditional's condition: the point's coordinate is zero. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 25 = 0 :=
  (by decide +kernel : ∀ t : Fin grid2.N, cond2_0 (grid2.coords t) ↔ t.val % 25 = 0)

/-- The second conditional's condition: the point's coordinate is 24. -/
abbrev cond2_1 (i : grid2.Coords) : Prop := k2_cond2 i = 1#1
/-- It holds at the last point only. -/
theorem hcond2_1 : ∀ t : Fin cfg2.N, cond2_1 (grid2.coords t) ↔ t.val % 25 = 24 :=
  (by decide +kernel : ∀ t : Fin grid2.N, cond2_1 (grid2.coords t) ↔ t.val % 25 = 24)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- At the first point the output window is idle: nothing is stored into it, -/
theorem idleAt2_5_A : ∀ t : Fin cfg2.N, cond2_0 (grid2.coords t) → ¬cond2_1 (grid2.coords t) → cfg2.idle 5 (grid2.coords t) = true := by decide +kernel
/-- and its block is not written back. -/
theorem noFlush2_5_A : ∀ t : Fin cfg2.N, cond2_0 (grid2.coords t) → ¬cond2_1 (grid2.coords t) → (cfg2.win 5).flush t = false := by decide +kernel
/-- At a middle point the output window is idle, -/
theorem idleAt2_5_B : ∀ t : Fin cfg2.N, ¬cond2_0 (grid2.coords t) → ¬cond2_1 (grid2.coords t) → cfg2.idle 5 (grid2.coords t) = true := by decide +kernel
/-- and its block is not written back. -/
theorem noFlush2_5_B : ∀ t : Fin cfg2.N, ¬cond2_0 (grid2.coords t) → ¬cond2_1 (grid2.coords t) → (cfg2.win 5).flush t = false := by decide +kernel
/-- At the last point the output window is live: the body stores into it. -/
theorem liveAt2_5_C : ∀ t : Fin cfg2.N, ¬cond2_0 (grid2.coords t) → cond2_1 (grid2.coords t) → cfg2.idle 5 (grid2.coords t) = false := by decide +kernel

/-! ## The memrefs the body runs on -/

/-- The output window's one staging buffer as a view: its contents are stated through it. -/
abbrev VO2_5 : View sig .tc .vmem S256x1 .f32 := (Memref.whole cc2_stg5_0 : Memref sig .tc .vmem S256x1 .f32).view
/-- Each window's current staging memref at point `t`, as the pipeline passes it, and its wholeness. -/
abbrev ms2_0 (t : Fin cfg2.N) : Memref sig .tc .vmem S2000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x1 .f32 := win2_5.stage (cfg2.slots t 5)
abbrev hs2_5 (t : Fin cfg2.N) : (ms2_5 t).IsWhole := hstage2_5 ((cfg2.slots t 5).cast nbuf2_5)
/-- The scratch accumulator: a whole scoped buffer of the kernel's own, passed beside the windows. -/
abbrev scM2_0 : Memref sig .tc .vmem S256x128 .f32 := Memref.whole cc2_scratch0
/-- The same as a view: what it holds is stated through it. -/
abbrev VS2_0 : View sig .tc .vmem S256x128 .f32 := scM2_0.view

/-- The core's scoped buffers that are no staging buffer of this region, split at the accumulator: it whole at some
    contents, every other one (the other regions' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other regions' scoped buffers, carried unopened through this region. -/
abbrev others2 (c : Dev nD) : sProp 𝕄 :=
  Pipeline.scopedRestBut (Ix := Unit) (Name := ℕ) (U := UR sig nD τ) (Lvl := ℕ) (Val := Elt F) spec2 c [cc2_scratch0]

/-- The region's invariant as the launch hands it over, with the accumulator as a memref owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA; rw [scopedRest2_split]; simp only [scM2_0, owns_whole]; try rfl

end Cert.KernelIdeal.Fr

end
-- ==== Proof.FrameKI.Reg2RunA.lean ====
import proofs.«403164_j18090402251169_3_alg».proof.Proof.FrameKI.Reg2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST point (the reset taken, the output branch not), on whole memrefs: the inputs' at their
    contents, the idle output's at contents `xi5` handed back untouched, the accumulator at anything; it ends with
    the inputs' as they were and the accumulator with the pieces `LS0` written: the zeros, then the first product
    added to what was read back. The pieces are the witness the run finds. -/
noncomputable def kernelRun2_A (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) :
    Σ' (L5 : List (View.Piece (Elt F) S256x1 .f32)), { LS0 : List (View.Piece (Elt F) S256x128 .f32) //
      ∀ (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, fun xi5 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.FrameKI.Reg2RunB.lean ====
import proofs.«403164_j18090402251169_3_alg».proof.Proof.FrameKI.Reg2RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE point (neither branch taken), on whole memrefs: the inputs' at their contents, the idle
    output's at contents `xi5` handed back untouched, the accumulator at what the point before left, `xs0`; it ends
    with the inputs' as they were and the accumulator with the piece `LS0` written: the product added to `xs0`. -/
noncomputable def kernelRun2_B (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) :
    Σ' (L5 : List (View.Piece (Elt F) S256x1 .f32)), { LS0 : List (View.Piece (Elt F) S256x128 .f32) //
      ∀ (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨[], ?_, fun xi5 E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.FrameKI.Reg2RunC.lean ====
import proofs.«403164_j18090402251169_3_alg».proof.Proof.FrameKI.Reg2RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST point (the reset not taken, the output branch taken), on whole memrefs: the inputs' at their
    contents, the output's at anything, the accumulator at what the point before left, `xs0`; it ends with the
    inputs' as they were, the accumulator with the piece `LS0` written and the output's buffer with the piece `L5`:
    the normalised, weighted and reduced accumulator. -/
noncomputable def kernelRun2_C (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) :
    Σ' (L5 : List (View.Piece (Elt F) S256x1 .f32)), { LS0 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_linear_kernel i arg1 harg1 arg2 harg2 arg3 harg3 arg4 harg4 arg5 harg5 arg6 harg6 arg7 harg7) K } := by
  refine ⟨?_, ?_, fun E K => ?run⟩
  case run =>
    simp only [cc2__pool_linear_kernel_eq_skeleton]; unfold cc2__pool_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.FrameKI.Reg2.lean ====
import proofs.«403164_j18090402251169_3_alg».proof.Proof.FrameKI.Reg2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (pipeline 2): what the accumulator and the output hold point by point, the proof data and
the body obligation -/

variable (V : (c : Dev nD) → (b : Ref sig .tc) → Buf (Elt F) ((c : Thread nD τ).loc b))

/-- This point stores nothing into the output (the window is idle and not written back there): no pieces, a
    placeholder that nothing consults. -/
def out2_A_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) : Vec F S256x1 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)

/-- The pieces this point writes into the accumulator cover it. -/
theorem scover2_A_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) (y : S256x128.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S256x128.size (by sl_kernel_rfl) y

/-- What this point leaves in the accumulator: its pieces read back. -/
def sout2_A_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) : Vec F S256x128 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

/-- This point stores nothing into the output (the window is idle and not written back there): no pieces, a
    placeholder that nothing consults. -/
def out2_B_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x1 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)

/-- The pieces this point writes into the accumulator cover it. -/
theorem scover2_B_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) (y : S256x128.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S256x128.size (by sl_kernel_rfl) y

/-- What this point leaves in the accumulator: its pieces read back. -/
def sout2_B_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x128 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

/-- The last point's piece for the output tiles its block, so it covers it. -/
theorem cover2_C_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) (y : S256x1.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S256x1.size (by sl_kernel_rfl) y

/-- What the last point leaves in the output's staging buffer: its piece read back. -/
def out2_C_5 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x1 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)

/-- The pieces this point writes into the accumulator cover it. -/
theorem scover2_C_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) (y : S256x128.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S256x128.size (by sl_kernel_rfl) y

/-- What this point leaves in the accumulator: its pieces read back. -/
def sout2_C_0 (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) : Vec F S256x128 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

/-! ## The two conditions at the first point and after it -/

theorem cond2_0_zero (hn : 0 < cfg2.N) : cond2_0 (grid2.coords ⟨0, hn⟩) := (hcond2_0 ⟨0, hn⟩).mpr (Nat.zero_mod _)
theorem ncond2_1_zero (hn : 0 < cfg2.N) : ¬cond2_1 (grid2.coords ⟨0, hn⟩) := fun h => by
  have := (hcond2_1 ⟨0, hn⟩).mp h; (try dsimp only at this); omega
theorem ncond2_0_succ (n : ℕ) (hn : n + 1 < cfg2.N) : ¬cond2_0 (grid2.coords ⟨n + 1, hn⟩) := fun h => by
  have hN : n + 1 < 25 := lt_of_lt_of_eq hn (show cfg2.N = 25 from N_2)
  have := (hcond2_0 ⟨n + 1, hn⟩).mp h; (try dsimp only at this); omega

/-! ## What the output's buffer and the accumulator hold after each point -/

/-- THE ACCUMULATION. What the output's staging buffer and the accumulator hold after the body at position `n`: the
    first point runs over an accumulator at anything, every later one over what the point before left in it; the
    last point is the one that also stores the output. -/
def outsAt2 (c : Dev nD) : (n : ℕ) → n < cfg2.N → Vec F S256x1 .f32 × Vec F S256x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (cond2_0_zero hn) (ncond2_1_zero hn) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (cond2_0_zero hn) (ncond2_1_zero hn) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h1 : (n + 1) % 25 = 24 then
      (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (ncond2_0_succ n hn) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- `outsAt2` at the first point. -/
theorem outsAt2_A (c : Dev nD) (t : Fin cfg2.N) (h0 : t.val % 25 = 0) (h1 : ¬t.val % 25 = 24) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 25 := lt_of_lt_of_eq hn (show cfg2.N = 25 from N_2); (try dsimp only at h0); omega)

/-- `outsAt2` at a middle point: over what the point before left. -/
theorem outsAt2_B (c : Dev nD) (t : Fin cfg2.N) (h0 : ¬t.val % 25 = 0) (h1 : ¬t.val % 25 = 24) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- `outsAt2` at the last point: over what the point before left. -/
theorem outsAt2_C (c : Dev nD) (t : Fin cfg2.N) (h0 : ¬t.val % 25 = 0) (h1 : t.val % 25 = 24) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region's invariant before position `n`: before the first point what the launch hands over (the accumulator at
    anything); afterwards the accumulator at what the point before left in it, the other regions' scoped buffers
    unopened and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at `outsAt2`'s first component; the invariant tracks the accumulator
    (`PhiS2`); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which of the three cases the
    point is in; the invariant hands the body the accumulator at what the point before left (at anything at the first
    point) and takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 25 := lt_of_lt_of_eq t.isLt (show cfg2.N = 25 from N_2)
  by_cases h0 : t.val % 25 = 0
  · have h1 : ¬t.val % 25 = 24 := by omega
    have hz : t.val = 0 := by omega
    rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
    rw [outsAt2_A V c t h0 h1]
    unfold sout2_A_0; (try dsimp only)
    rw [PhiS2_castSucc V c t, PhiS2_zero V c _ _ hz, PhiA2_eq]
    iintro ⟨⟨⟨HS0, Hr⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h1 : t.val % 25 = 24
    · rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Cert.KernelIdeal.Fr

end
-- ==== Proof.Val.Spec.lean ====
/-
  What the three kernel regions and the reference compute, as whole-array functions over the extended reals.

  A graph convolution's dense part: for node n and output feature o,
      Σₖ agg(n, k) · W_rel(o, k)  +  Σₖ h(n, k) · W_root(o, k)  +  b(o),
  the first layer passed through max(·, 0).  The edge aggregation that feeds it is carried as one function of the node
  features, the edge list and the edge weights: gather the source rows, scale by the edge weight, add into the target rows.
  The head: per graph g, the member rows' sum divided by max(count, 1), dotted with the head's weight row, plus its
  bias, through max(·, 0) — with the member sum written either as a sum over all nodes against a 0/1 membership
  matrix (the kernel's form) or as a scatter-add over the graph ids (the reference's form).
-/
import proofs.«403164_j18090402251169_3_alg».proof.Proof.Gen.KernelIdeal
import proofs.«403164_j18090402251169_3_alg».proof.Proof.Gen.ReferenceIdeal
import Idealize.ShloMosaic.PureOps.Ideal.Laws
import Idealize.ShloMosaic.Lib.ValueIdx

noncomputable section

namespace Cert.Spec

open Idealize.ShloMosaic Idealize.ShloMosaic.ValueIdx

/-! ## The dense part of a graph convolution -/

/-- Entry (n, o): the aggregated row against W_rel's row o, the node's own row against W_root's row o, plus b(o). -/
def denseAt (N K O : Nat) (agg h : (⟨2, ![N, K]⟩ : Shape).Idx → EReal) (wrel : (⟨2, ![O, K]⟩ : Shape).Idx → EReal)
    (b : (⟨1, ![O]⟩ : Shape).Idx → EReal) (wroot : (⟨2, ![O, K]⟩ : Shape).Idx → EReal) (n : Fin N) (o : Fin O) : EReal :=
  (∑ k : Fin K, agg (ix2 n k) * wrel (ix2 o k)) + (∑ k : Fin K, h (ix2 n k) * wroot (ix2 o k)) + b (ix1 o)

/-- The whole array. -/
def dense (N K O : Nat) (agg h : (⟨2, ![N, K]⟩ : Shape).Idx → EReal) (wrel : (⟨2, ![O, K]⟩ : Shape).Idx → EReal)
    (b : (⟨1, ![O]⟩ : Shape).Idx → EReal) (wroot : (⟨2, ![O, K]⟩ : Shape).Idx → EReal) : (⟨2, ![N, O]⟩ : Shape).Idx → EReal :=
  fun i => denseAt N K O agg h wrel b wroot (i 0) (i 1)

/-- The same through max(·, 0). -/
def denseRelu (N K O : Nat) (agg h : (⟨2, ![N, K]⟩ : Shape).Idx → EReal) (wrel : (⟨2, ![O, K]⟩ : Shape).Idx → EReal)
    (b : (⟨1, ![O]⟩ : Shape).Idx → EReal) (wroot : (⟨2, ![O, K]⟩ : Shape).Idx → EReal) : (⟨2, ![N, O]⟩ : Shape).Idx → EReal :=
  fun i => max (denseAt N K O agg h wrel b wroot (i 0) (i 1)) 0

theorem dense_ix2 (N K O : Nat) (agg h wrel b wroot) (n : Fin N) (o : Fin O) :
    dense N K O agg h wrel b wroot (ix2 n o) = denseAt N K O agg h wrel b wroot n o := rfl
theorem denseRelu_ix2 (N K O : Nat) (agg h wrel b wroot) (n : Fin N) (o : Fin O) :
    denseRelu N K O agg h wrel b wroot (ix2 n o) = max (denseAt N K O agg h wrel b wroot n o) 0 := rfl

/-! ## The edge aggregation, as the host operations both programs apply (the reference's spelling) -/

open Cert.ReferenceIdeal Cert.ReferenceIdeal.Facts₀ Cert.ReferenceIdeal.Facts in
/-- Source ids wrapped once where negative, as a column of gather starts. -/
def srcCol (ei : IVec S2x800000 32) : IVec S800000x1 32 :=
  broadcastInDim S800000x1 ![0] bcast_S800000_S800000x1_0
    (select (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

open Cert.ReferenceIdeal Cert.ReferenceIdeal.Facts₀ Cert.ReferenceIdeal.Facts in
/-- Target ids as a column of scatter indices. -/
def dstCol (ei : IVec S2x800000 32) : IVec S800000x1 32 :=
  broadcastInDim S800000x1 ![0] bcast_S800000_S800000x1_0
    (shapeCast _ (extractStridedSlice S1x800000 ![1, 0] ei slices_S2x800000_S1x800000_1_0) shapeCasts_S1x800000_S800000)

open Cert.ReferenceIdeal Cert.ReferenceIdeal.Facts₀ Cert.ReferenceIdeal.Facts in
/-- The 96-feature aggregation: rows gathered by source, scaled by the edge weight, added into the target rows. -/
def agg96 (h : FVec Ideal S50000x96 .f32) (ei : IVec S2x800000 32) (ea : FVec Ideal S800000 .f32) : FVec Ideal S50000x96 .f32 :=
  Host.scatterAdd scatter_S50000x96_S800000x1_S800000x96_1_0_0_1
    (broadcastInDim S50000x96 ![] bcast_S_S50000x96 (constant S_ .f32 0x00000000#32))
    (dstCol ei)
    (mulf (Host.gather gather_S50000x96_S800000x1_S800000x96_1_0_n_n_0_1_196 h (srcCol ei))
      (broadcastInDim S800000x96 ![0, 1] bcast_S800000x1_S800000x96_0_1 (broadcastInDim S800000x1 ![0] bcast_S800000_S800000x1_0 ea)))

open Cert.ReferenceIdeal Cert.ReferenceIdeal.Facts₀ Cert.ReferenceIdeal.Facts in
/-- The 128-feature aggregation. -/
def agg128 (h : FVec Ideal S50000x128 .f32) (ei : IVec S2x800000 32) (ea : FVec Ideal S800000 .f32) : FVec Ideal S50000x128 .f32 :=
  Host.scatterAdd scatter_S50000x128_S800000x1_S800000x128_1_0_0_1
    (broadcastInDim S50000x128 ![] bcast_S_S50000x128 (constant S_ .f32 0x00000000#32))
    (dstCol ei)
    (mulf (Host.gather gather_S50000x128_S800000x1_S800000x128_1_0_n_n_0_1_1128 h (srcCol ei))
      (broadcastInDim S800000x128 ![0, 1] bcast_S800000x1_S800000x128_0_1 (broadcastInDim S800000x1 ![0] bcast_S800000_S800000x1_0 ea)))

/-! ## The pooled head -/

open Cert.KernelIdeal Cert.KernelIdeal.Facts₀ Cert.KernelIdeal.Facts in
/-- The kernel's membership matrix: entry (n, g) is 1 where node n's graph id equals g, else 0. -/
def onehot (batch : IVec S50000 32) : FVec Ideal S50000x256 .f32 :=
  uitofp .f32 (cmpi .eq
    (broadcastInDim S50000x256 ![0, 1] bcast_S50000x1_S50000x256_0_1 (broadcastInDim S50000x1 ![0] bcast_S50000_S50000x1_0 batch))
    (broadcastInDim S50000x256 ![0, 1] bcast_S1x256_S50000x256_0_1 (broadcastInDim S1x256 ![1] bcast_S256_S1x256_1 (iotaInDim S256 32 0))))

open Cert.ReferenceIdeal Cert.ReferenceIdeal.Facts₀ Cert.ReferenceIdeal.Facts in
/-- Per graph, max(number of member nodes, 1): ones scatter-added over the graph ids, then the maximum with one. -/
def counts (batch : IVec S50000 32) : FVec Ideal S256 .f32 :=
  maximumf
    (Host.scatterAdd scatter_S256_S50000x1_S50000_n_0_0_1
      (broadcastInDim S256 ![] bcast_S_S256 (constant S_ .f32 0x00000000#32))
      (broadcastInDim S50000x1 ![0] bcast_S50000_S50000x1_0 batch)
      (broadcastInDim S50000 ![] bcast_S_S50000 (constant S_ .f32 0x3F800000#32)))
    (broadcastInDim S256 ![] bcast_S_S256 (constant S_ .f32 0x3F800000#32))

open Cert.ReferenceIdeal Cert.ReferenceIdeal.Facts₀ Cert.ReferenceIdeal.Facts in
/-- The reference's member sums: the rows of h scatter-added over the graph ids. -/
def segsum (h : FVec Ideal S50000x128 .f32) (batch : IVec S50000 32) : FVec Ideal S256x128 .f32 :=
  Host.scatterAdd scatter_S256x128_S50000x1_S50000x128_1_0_0_1
    (broadcastInDim S256x128 ![] bcast_S_S256x128 (constant S_ .f32 0x00000000#32))
    (broadcastInDim S50000x1 ![0] bcast_S50000_S50000x1_0 batch) h

open Cert.KernelIdeal Cert.KernelIdeal.Facts₀ Cert.KernelIdeal.Facts in
/-- The same counts laid out as the column the kernel's last region stages. -/
def countsCol (batch : IVec Cert.KernelIdeal.S50000 32) : FVec Ideal Cert.KernelIdeal.S256x1 .f32 :=
  shapeCast Cert.KernelIdeal.S256x1 (counts batch) shapeCasts_S256_S256x1

/-- The head at graph g from the member sums s, the count column cnt, the weight row and the bias. -/
def headAt (s : (⟨2, ![256, 128]⟩ : Shape).Idx → EReal) (cnt : Fin 256 → EReal) (wl : (⟨2, ![1, 128]⟩ : Shape).Idx → EReal)
    (bl : (⟨1, ![1]⟩ : Shape).Idx → EReal) (g : Fin 256) : EReal :=
  max ((∑ k : Fin 128, Ideal.div (s (ix2 g k)) (cnt g) * wl (ix2 0 k)) + bl (ix1 0)) 0

/-- The kernel's form: member sums as Σₙ membership(n, g) · h(n, k); the counts a column. -/
def poolK (oh : (⟨2, ![50000, 256]⟩ : Shape).Idx → EReal) (h : (⟨2, ![50000, 128]⟩ : Shape).Idx → EReal)
    (cnt : (⟨2, ![256, 1]⟩ : Shape).Idx → EReal) (wl : (⟨2, ![1, 128]⟩ : Shape).Idx → EReal) (bl : (⟨1, ![1]⟩ : Shape).Idx → EReal) :
    (⟨2, ![256, 1]⟩ : Shape).Idx → EReal :=
  fun i => headAt (fun j => ∑ n : Fin 50000, oh (ix2 n (j 0)) * h (ix2 n (j 1))) (fun g => cnt (ix2 g 0)) wl bl (i 0)

/-- The reference's form: member sums by scatter-add; the counts a vector. -/
def poolR (h : FVec Ideal Cert.ReferenceIdeal.S50000x128 .f32) (batch : IVec Cert.ReferenceIdeal.S50000 32)
    (wl : (⟨2, ![1, 128]⟩ : Shape).Idx → EReal) (bl : (⟨1, ![1]⟩ : Shape).Idx → EReal) : (⟨2, ![256, 1]⟩ : Shape).Idx → EReal :=
  fun i => headAt (segsum h batch) (fun g => counts batch (ix1 g)) wl bl (i 0)

/-! ## The whole computation -/

/-- The first layer's node features. -/
def layer1 (x : FVec Ideal Cert.ReferenceIdeal.S50000x96 .f32) (ei : IVec Cert.ReferenceIdeal.S2x800000 32) (ea : FVec Ideal Cert.ReferenceIdeal.S800000 .f32)
    (w1 : (⟨2, ![128, 96]⟩ : Shape).Idx → EReal) (b1 : (⟨1, ![128]⟩ : Shape).Idx → EReal) (r1 : (⟨2, ![128, 96]⟩ : Shape).Idx → EReal) :
    (⟨2, ![50000, 128]⟩ : Shape).Idx → EReal :=
  denseRelu 50000 96 128 (agg96 x ei ea) x w1 b1 r1

/-- The second layer's node features. -/
def layer2 (h1 : (⟨2, ![50000, 128]⟩ : Shape).Idx → EReal) (ei : IVec Cert.ReferenceIdeal.S2x800000 32) (ea : FVec Ideal Cert.ReferenceIdeal.S800000 .f32)
    (w3 : (⟨2, ![128, 128]⟩ : Shape).Idx → EReal) (b3 : (⟨1, ![128]⟩ : Shape).Idx → EReal) (r3 : (⟨2, ![128, 128]⟩ : Shape).Idx → EReal) :
    (⟨2, ![50000, 128]⟩ : Shape).Idx → EReal :=
  dense 50000 128 128 (agg128 h1 ei ea) h1 w3 b3 r3

/-- The result, in the reference's form of the head. -/
def resultR (x : FVec Ideal Cert.ReferenceIdeal.S50000x96 .f32) (ei : IVec Cert.ReferenceIdeal.S2x800000 32) (batch : IVec Cert.ReferenceIdeal.S50000 32)
    (ea : FVec Ideal Cert.ReferenceIdeal.S800000 .f32) (w1 : (⟨2, ![128, 96]⟩ : Shape).Idx → EReal) (b1 : (⟨1, ![128]⟩ : Shape).Idx → EReal)
    (r1 : (⟨2, ![128, 96]⟩ : Shape).Idx → EReal) (w3 : (⟨2, ![128, 128]⟩ : Shape).Idx → EReal) (b3 : (⟨1, ![128]⟩ : Shape).Idx → EReal)
    (r3 : (⟨2, ![128, 128]⟩ : Shape).Idx → EReal) (wl : (⟨2, ![1, 128]⟩ : Shape).Idx → EReal) (bl : (⟨1, ![1]⟩ : Shape).Idx → EReal) : (⟨2, ![256, 1]⟩ : Shape).Idx → EReal :=
  poolR (layer2 (layer1 x ei ea w1 b1 r1) ei ea w3 b3 r3) batch wl bl

/-- The result, in the kernel's form of the head. -/
def resultK (x : FVec Ideal Cert.ReferenceIdeal.S50000x96 .f32) (ei : IVec Cert.ReferenceIdeal.S2x800000 32) (batch : IVec Cert.ReferenceIdeal.S50000 32)
    (ea : FVec Ideal Cert.ReferenceIdeal.S800000 .f32) (w1 : (⟨2, ![128, 96]⟩ : Shape).Idx → EReal) (b1 : (⟨1, ![128]⟩ : Shape).Idx → EReal)
    (r1 : (⟨2, ![128, 96]⟩ : Shape).Idx → EReal) (w3 : (⟨2, ![128, 128]⟩ : Shape).Idx → EReal) (b3 : (⟨1, ![128]⟩ : Shape).Idx → EReal)
    (r3 : (⟨2, ![128, 128]⟩ : Shape).Idx → EReal) (wl : (⟨2, ![1, 128]⟩ : Shape).Idx → EReal) (bl : (⟨1, ![1]⟩ : Shape).Idx → EReal) : (⟨2, ![256, 1]⟩ : Shape).Idx → EReal :=
  poolK (onehot batch) (layer2 (layer1 x ei ea w1 b1 r1) ei ea w3 b3 r3) (countsCol batch) wl bl

end Cert.Spec

end
-- ==== Proof.LibDotNT.lean ====
/-
  The product of a matrix with the transpose of another, read at one entry over the extended reals.

  For an M × K matrix l and an N × K matrix r, contracted on the last axis of both, entry (i, j) of the product is
  Σₖ l(i, k) · r(j, k): at output entry (i, j) and contraction position k the left operand is read at (i, k) — the
  output's row on axis 0, the contraction position on axis 1 — and the right operand at (j, k) — the output's column
  on ITS axis 0, the contraction position on axis 1. The contraction has one axis of extent K, so the sum over its index
  set is the sum over k < K. This holds for every M, K, N, for a product accumulated into a zero accumulator.
-/
import Idealize.ShloMosaic.PureOps.Ideal.Laws
import Idealize.ShloMosaic.Lib.ValueIdx

noncomputable section

namespace Cert.LibDotNT

open Idealize.ShloMosaic Idealize.ShloMosaic.ValueIdx

variable (M K N : Nat)

/-- Axis 0 of the left operand's index is the output's row. -/
theorem lhs_nt_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- Axis 1 of the left operand's index is the contraction position. -/
theorem lhs_nt_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- Axis 0 of the right operand's index is the output's column. -/
theorem rhs_nt_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- Axis 1 of the right operand's index is the contraction position. -/
theorem rhs_nt_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- At output entry (i, j) and contraction position k the left operand is read at (i, k). -/
theorem lhsIdx_nt (i : Fin M) (j : Fin N) (k : Fin K) :
    (DotDims.transposedRhs M K N).lhsIdx (ix2 i j) ((contrEquiv1 (DotDims.transposedRhs M K N) K rfl rfl).symm k) = ix2 i k :=
  funext fun a => Fin.ext (by
    have hk := contrEquiv1_symm_val (DotDims.transposedRhs M K N) K rfl rfl k
    match a with
    | ⟨0, _⟩ => exact lhs_nt_0 M K N _ _
    | ⟨1, _⟩ => exact (lhs_nt_1 M K N _ _).trans hk)

/-- At output entry (i, j) and contraction position k the right operand is read at (j, k). -/
theorem rhsIdx_nt (i : Fin M) (j : Fin N) (k : Fin K) :
    (DotDims.transposedRhs M K N).rhsIdx (ix2 i j) ((contrEquiv1 (DotDims.transposedRhs M K N) K rfl rfl).symm k) = ix2 j k :=
  funext fun a => Fin.ext (by
    have hk := contrEquiv1_symm_val (DotDims.transposedRhs M K N) K rfl rfl k
    match a with
    | ⟨0, _⟩ => exact rhs_nt_0 M K N _ _
    | ⟨1, _⟩ => exact (rhs_nt_1 M K N _ _).trans hk)

/-- Entry (i, j) of a kernel's product with a transposed right operand, into a zero accumulator: Σₖ l(i, k) · r(j, k). -/
theorem mm_nt {φ₁ φ₂ : FTy} (l : FVec Ideal ⟨2, ![M, K]⟩ φ₁) (r : FVec Ideal ⟨2, ![N, K]⟩ φ₂)
    (i : Fin M) (j : Fin N) :
    matmul (DotDims.transposedRhs M K N) none l r (constant (F := Ideal) ⟨2, ![M, N]⟩ .f32 0x00000000#32) (ix2 i j)
      = ∑ k : Fin K, l (ix2 i k) * r (ix2 j k) := by
  refine (Ideal.matmul_constant_zero_apply (DotDims.transposedRhs M K N) none l r _).trans ?_
  rw [← Equiv.sum_comp (contrEquiv1 (DotDims.transposedRhs M K N) K rfl rfl).symm]
  refine Finset.sum_congr rfl fun k _ => ?_
  rw [lhsIdx_nt, rhsIdx_nt]

end Cert.LibDotNT

end
-- ==== Proof.Val.Conv0.lean ====
/-
  The first graph convolution's region, as one function of the arrays it finds.

  The region's grid has 25 points. Point t stages rows 2000t … 2000t + 1999 of the aggregated messages and of the node
  features, the two weight matrices and the bias whole, and writes rows 2000t … 2000t + 1999 of the output. For a staged
  row p and an output feature q the body leaves
      max( Σₖ agg(p, k) · W_rel(q, k)  +  Σₖ h(p, k) · W_root(q, k)  +  b(q),  0 ):
  each product contracts the last axis of both operands, the change of float format is the identity on the extended
  reals, and the bias row is read at q whatever the row p. Row r of the output array lies in the block of point r / 2000
  and in no other, so the 25 blocks tile the 50000 rows and the array ends holding that value at every entry.
-/
import proofs.«403164_j18090402251169_3_alg».proof.Proof.FrameKI.Reg0
import proofs.«403164_j18090402251169_3_alg».proof.Proof.Val.Spec
import proofs.«403164_j18090402251169_3_alg».proof.Proof.LibDotNT
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The body's stored value at one entry -/

section Payload0

/-- The body's product record contracts axis 1 of both operands and keeps axis 0 of each: a 2000 × 96 matrix against the
    transpose of a 128 × 96 one. -/
theorem dot0_eq : dot_S2000x96_S128x96_S2000x128_1_1_0_0_n_n = DotDims.transposedRhs 2000 96 128 := rfl

/-- Entry (p, q) of what the body stores, from the five blocks it loads: the two products at (p, q), each a sum over the
    96 input features, plus the bias at q, through max(·, 0). -/
theorem pay0_apply (a x : Vec Ideal S2000x96 .f32) (w wr : Vec Ideal S128x96 .f32) (b : Vec Ideal S128 .f32)
    (p : Fin 2000) (q : Fin 128) :
    k0_pay1 a x w wr b (ix2 p q)
      = max ((∑ k : Fin 96, a (ix2 p k) * w (ix2 q k)) + (∑ k : Fin 96, x (ix2 p k) * wr (ix2 q k)) + b (ix1 q)) 0 := by
  unfold k0_pay1
  -- the first product: its left operand is the block recast to its own shape
  have hm1 : matmul dot_S2000x96_S128x96_S2000x128_1_1_0_0_n_n none
        (truncf FTy.bf16 (shapeCast S2000x96 a shapeCasts_S2000x96_S2000x96) bitsLt_bf16_f32)
        (truncf FTy.bf16 w bitsLt_bf16_f32) (constant (F := Ideal) S2000x128 FTy.f32 0#32) (ix2 p q)
      = ∑ k : Fin 96, a (ix2 p k) * w (ix2 q k) := by
    rw [shapeCast_self]
    exact Cert.LibDotNT.mm_nt 2000 96 128 (truncf FTy.bf16 a bitsLt_bf16_f32) (truncf FTy.bf16 w bitsLt_bf16_f32) p q
  -- the second product
  have hm2 : matmul dot_S2000x96_S128x96_S2000x128_1_1_0_0_n_n none
        (truncf FTy.bf16 x bitsLt_bf16_f32)
        (truncf FTy.bf16 wr bitsLt_bf16_f32) (constant (F := Ideal) S2000x128 FTy.f32 0#32) (ix2 p q)
      = ∑ k : Fin 96, x (ix2 p k) * wr (ix2 q k) :=
    Cert.LibDotNT.mm_nt 2000 96 128 (truncf FTy.bf16 x bitsLt_bf16_f32) (truncf FTy.bf16 wr bitsLt_bf16_f32) p q
  -- the bias: a vector of 128 entries laid out as one row, the row repeated over the 2000 rows
  have hb : broadcastTo S2000x128 (shapeCast S1x128 b shapeCasts_S128_S1x128) broadcasts_S1x128_S2000x128 (ix2 p q) = b (ix1 q) :=
    (broadcastTo_1b_ab_apply (shapeCast S1x128 b shapeCasts_S128_S1x128) broadcasts_S1x128_S2000x128 p q).trans
      (shapeCast_a_1a_apply b shapeCasts_S128_S1x128 0 q)
  -- the zero word is the extended real 0
  have hz : broadcast S2000x128 (FloatOps.ofBits (F := Ideal) FTy.f32 0#32) (ix2 p q) = 0 := Ideal.ofBits_zero_f32
  exact congrArg₂ max (congrArg₂ (· + ·) (congrArg₂ (· + ·) hm1 hm2) hb) hz

/-- The same entry against the whole arrays: when the staged rows p of the two row blocks are row n of their arrays and
    the weights and the bias are staged whole, the stored entry (p, q) is the dense part at (n, q) through max(·, 0). -/
theorem block_entry0 (A X : (⟨2, ![50000, 96]⟩ : Shape).Idx → EReal) (W WR : (⟨2, ![128, 96]⟩ : Shape).Idx → EReal)
    (B : (⟨1, ![128]⟩ : Shape).Idx → EReal)
    (a x : Vec Ideal S2000x96 .f32) (w wr : Vec Ideal S128x96 .f32) (b : Vec Ideal S128 .f32)
    (p : Fin 2000) (q : Fin 128) (n : Fin 50000)
    (ha : ∀ k : Fin 96, a (ix2 p k) = A (ix2 n k)) (hx : ∀ k : Fin 96, x (ix2 p k) = X (ix2 n k))
    (hw : ∀ k : Fin 96, w (ix2 q k) = W (ix2 q k)) (hwr : ∀ k : Fin 96, wr (ix2 q k) = WR (ix2 q k))
    (hb : b (ix1 q) = B (ix1 q)) :
    k0_pay1 a x w wr b (ix2 p q) = Cert.Spec.denseRelu 50000 96 128 A X W B WR (ix2 n q) := by
  rw [pay0_apply, Cert.Spec.denseRelu_ix2]
  unfold Cert.Spec.denseAt
  simp only [ha, hx, hw, hwr, hb]

end Payload0

/-! ## From blocks to the array -/

variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-- The block indices at point t, decided over the 25 points: the two row-blocked inputs and the output are at block
    (t, 0); the weights and the bias are at block 0 on every axis. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of window 0's block at point t is row 2000t + p of its array: an element of a block sits at block index ×
    block size + its own coordinate. -/
theorem rows0_0 (c : Dev nD) (t : Fin cfg0.N) (p : Fin 2000) (k : Fin 96) (n : Fin 50000) (hn : n.val = 2000 * t.val + p.val) :
    (iblk0 V c 0 t : Vec Ideal S2000x96 .f32) (ix2 p k) = (V c main_v16 : S50000x96.Idx → EReal) (ix2 n k) := by
  obtain ⟨e00, e01, -⟩ := idx_facts0 t
  show V c main_v16 (((cfg0.win 0).blk t).view.emb (ix2 p k)) = V c main_v16 (ix2 n k)
  refine congrArg (V c main_v16) (funext fun a => Fin.ext ?_)
  match a with
  | ⟨0, _⟩ => show win0_0.index t (0 : Fin 2) * 2000 + 1 * p.val = n.val; omega
  | ⟨1, _⟩ => show win0_0.index t (1 : Fin 2) * 96 + 1 * k.val = k.val; omega

/-- The same for window 1. -/
theorem rows0_1 (c : Dev nD) (t : Fin cfg0.N) (p : Fin 2000) (k : Fin 96) (n : Fin 50000) (hn : n.val = 2000 * t.val + p.val) :
    (iblk0 V c 1 t : Vec Ideal S2000x96 .f32) (ix2 p k) = (V c main_arg0 : S50000x96.Idx → EReal) (ix2 n k) := by
  obtain ⟨-, -, e10, e11, -⟩ := idx_facts0 t
  show V c main_arg0 (((cfg0.win 1).blk t).view.emb (ix2 p k)) = V c main_arg0 (ix2 n k)
  refine congrArg (V c main_arg0) (funext fun a => Fin.ext ?_)
  match a with
  | ⟨0, _⟩ => show win0_1.index t (0 : Fin 2) * 2000 + 1 * p.val = n.val; omega
  | ⟨1, _⟩ => show win0_1.index t (1 : Fin 2) * 96 + 1 * k.val = k.val; omega

/-- Window 2's block at every point is its whole array. -/
theorem whole0_2 (c : Dev nD) (t : Fin cfg0.N) (q : Fin 128) (k : Fin 96) :
    (iblk0 V c 2 t : Vec Ideal S128x96 .f32) (ix2 q k) = (V c main_arg4 : S128x96.Idx → EReal) (ix2 q k) := by
  obtain ⟨-, -, -, -, e20, e21, -⟩ := idx_facts0 t
  show V c main_arg4 (((cfg0.win 2).blk t).view.emb (ix2 q k)) = V c main_arg4 (ix2 q k)
  refine congrArg (V c main_arg4) (funext fun a => Fin.ext ?_)
  match a with
  | ⟨0, _⟩ => show win0_2.index t (0 : Fin 2) * 128 + 1 * q.val = q.val; omega
  | ⟨1, _⟩ => show win0_2.index t (1 : Fin 2) * 96 + 1 * k.val = k.val; omega

/-- Window 3's block at every point is its whole array. -/
theorem whole0_3 (c : Dev nD) (t : Fin cfg0.N) (q : Fin 128) :
    (iblk0 V c 3 t : Vec Ideal S128 .f32) (ix1 q) = (V c main_arg5 : S128.Idx → EReal) (ix1 q) := by
  obtain ⟨-, -, -, -, -, -, e30, -⟩ := idx_facts0 t
  show V c main_arg5 (((cfg0.win 3).blk t).view.emb (ix1 q)) = V c main_arg5 (ix1 q)
  refine congrArg (V c main_arg5) (funext fun a => Fin.ext ?_)
  match a with
  | ⟨0, _⟩ => show win0_3.index t (0 : Fin 1) * 128 + 1 * q.val = q.val; omega

/-- Window 4's block at every point is its whole array. -/
theorem whole0_4 (c : Dev nD) (t : Fin cfg0.N) (q : Fin 128) (k : Fin 96) :
    (iblk0 V c 4 t : Vec Ideal S128x96 .f32) (ix2 q k) = (V c main_arg6 : S128x96.Idx → EReal) (ix2 q k) := by
  obtain ⟨-, -, -, -, -, -, -, e40, e41, -⟩ := idx_facts0 t
  show V c main_arg6 (((cfg0.win 4).blk t).view.emb (ix2 q k)) = V c main_arg6 (ix2 q k)
  refine congrArg (V c main_arg6) (funext fun a => Fin.ext ?_)
  match a with
  | ⟨0, _⟩ => show win0_4.index t (0 : Fin 2) * 128 + 1 * q.val = q.val; omega
  | ⟨1, _⟩ => show win0_4.index t (1 : Fin 2) * 96 + 1 * k.val = k.val; omega

/-- What point t writes back is block t of the dense part through max(·, 0) of the arrays the region finds: entry (p, q)
    of the stored block is the value at row 2000t + p, feature q. -/
theorem flushed0_eq (c : Dev nD) (t : Fin cfg0.N) :
    (dat0 (F := Ideal) V c).flushed 5 t = ((cfg0.win 5).blk t).view.read (Elt Ideal)
      (Cert.Spec.denseRelu 50000 96 128 (V c main_v16) (V c main_arg0) (V c main_arg4) (V c main_arg5) (V c main_arg6)) := by
  show (cfg0.win 5).cut (grid0.coords t) ((dat0 V c).after 5 t) = _
  rw [after0_5]
  unfold out0_5
  rw [View.canon_unit_zero hz0_2]
  simp only [View.ld_unit_zero (S := S2000x96) hz0_2, View.ld_unit_zero (S := S128x96) hz0_2, View.ld_unit_zero (S := S128) hz0_1]
  obtain ⟨-, -, -, -, -, -, -, -, -, e50, e51⟩ := idx_facts0 t
  have ht : t.val < 25 := lt_of_lt_of_eq t.isLt N_0
  funext j
  have hj0 : (j 0).val < 2000 := (j 0).isLt
  have hj1 : (j 1).val < 128 := (j 1).isLt
  have hn : 2000 * t.val + (j 0).val < 50000 := by omega
  -- the block's entry j sits in the array at row 2000t + j₀, column j₁
  have hemb : ((cfg0.win 5).blk t).view.emb j = ix2 (⟨2000 * t.val + (j 0).val, hn⟩ : Fin 50000) (⟨(j 1).val, hj1⟩ : Fin 128) := by
    funext a; apply Fin.ext
    match a with
    | ⟨0, _⟩ => show win0_5.index t (0 : Fin 2) * 2000 + 1 * (j 0).val = 2000 * t.val + (j 0).val; omega
    | ⟨1, _⟩ => show win0_5.index t (1 : Fin 2) * 128 + 1 * (j 1).val = (j 1).val; omega
  -- and in the staging buffer at (j₀, j₁)
  have hx : (cfg0.win 5).xinj (grid0.coords t) j = ix2 (⟨(j 0).val, hj0⟩ : Fin 2000) (⟨(j 1).val, hj1⟩ : Fin 128) :=
    funext fun a => match a with | ⟨0, _⟩ => rfl | ⟨1, _⟩ => rfl
  refine (congrArg (k0_pay1 (iblk0 V c 0 t) (iblk0 V c 1 t) (iblk0 V c 2 t) (iblk0 V c 4 t) (iblk0 V c 3 t)) hx).trans ?_
  refine Eq.trans ?_ (congrArg (Cert.Spec.denseRelu 50000 96 128 (V c main_v16) (V c main_arg0) (V c main_arg4) (V c main_arg5) (V c main_arg6)) hemb).symm
  exact block_entry0 (V c main_v16) (V c main_arg0) (V c main_arg4) (V c main_arg6) (V c main_arg5)
    (iblk0 V c 0 t) (iblk0 V c 1 t) (iblk0 V c 2 t) (iblk0 V c 4 t) (iblk0 V c 3 t) ⟨(j 0).val, hj0⟩ ⟨(j 1).val, hj1⟩ ⟨2000 * t.val + (j 0).val, hn⟩
    (fun k => rows0_0 V c t _ k _ rfl) (fun k => rows0_1 V c t _ k _ rfl)
    (fun k => whole0_2 V c t _ k) (fun k => whole0_4 V c t _ k) (whole0_3 V c t _)

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v17).slice (win0_5.rect t)).set ↔ _
  rw [View.set_slice_whole, Rect.mem_set_unit]
  exact Iff.rfl

/-- Every entry of the output array is written back by some point: row r by point r / 2000. -/
theorem cover0 (i : S50000x128.Idx) : ∃ t : Fin cfg0.N, (cfg0.win 5).flush t = true ∧ i ∈ ((cfg0.win 5).blk t).view.set := by
  have h0 : (i 0).val < 50000 := (i 0).isLt
  have h1 : (i 1).val < 128 := (i 1).isLt
  have hN : (i 0).val / 2000 < cfg0.N := by rw [show cfg0.N = 25 from N_0]; omega
  obtain ⟨-, -, -, -, -, -, -, -, -, e50, e51⟩ := idx_facts0 ⟨(i 0).val / 2000, hN⟩
  have e50' : win0_5.index ⟨(i 0).val / 2000, hN⟩ (0 : Fin 2) = (i 0).val / 2000 := e50
  refine ⟨⟨(i 0).val / 2000, hN⟩, flush0_5 _, ?_⟩
  rw [mem_blk0]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    omega

/-- The output array after the region's last point: the first layer's dense part through max(·, 0), of the arrays the
    region finds, at every entry. -/
theorem final0 (c : Dev nD) : (dat0 (F := Ideal) V c).arrAt 5 cfg0.N
    = Cert.Spec.denseRelu 50000 96 128 (V c main_v16) (V c main_arg0) (V c main_arg4) (V c main_arg5) (V c main_arg6) :=
  (dat0 (F := Ideal) V c).arrAt_eq_of_cover 5 _ (fun t _ => flushed0_eq V c t) cover0

end Cert.KernelIdeal.Val

end
-- ==== Proof.Val.Conv1.lean ====
/-
  The second graph convolution's region, as one function of the arrays it finds.

  The region's grid has 25 points. Point t stages rows 2000t … 2000t + 1999 of the aggregated messages and of the first
  layer's node features (128 features each), the two 128 × 128 weight matrices and the bias whole, and writes rows
  2000t … 2000t + 1999 of the output. For a staged row p and an output feature q the body leaves
      Σₖ agg(p, k) · W_rel(q, k)  +  Σₖ h(p, k) · W_root(q, k)  +  b(q),
  with no maximum after it: each product contracts the last axis of both operands, the change of float format is the
  identity on the extended reals, and the bias row is read at q whatever the row p. Row r of the output array lies in the
  block of point r / 2000 and in no other, so the 25 blocks tile the 50000 rows and the array ends holding that value at
  every entry.
-/
import proofs.«403164_j18090402251169_3_alg».proof.Proof.FrameKI.Reg1
import proofs.«403164_j18090402251169_3_alg».proof.Proof.Val.Spec
import proofs.«403164_j18090402251169_3_alg».proof.Proof.LibDotNT
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The body's stored value at one entry -/

section Payload1

/-- The body's product record contracts axis 1 of both operands and keeps axis 0 of each: a 2000 × 128 matrix against the
    transpose of a 128 × 128 one. -/
theorem dot1_eq : dot_S2000x128_S128x128_S2000x128_1_1_0_0_n_n = DotDims.transposedRhs 2000 128 128 := rfl

/-- Entry (p, q) of what the body stores, from the five blocks it loads: the two products at (p, q), each a sum over the
    128 input features, plus the bias at q. -/
theorem pay1_apply (a x : Vec Ideal S2000x128 .f32) (w wr : Vec Ideal S128x128 .f32) (b : Vec Ideal S128 .f32)
    (p : Fin 2000) (q : Fin 128) :
    k1_pay1 a x w wr b (ix2 p q)
      = (∑ k : Fin 128, a (ix2 p k) * w (ix2 q k)) + (∑ k : Fin 128, x (ix2 p k) * wr (ix2 q k)) + b (ix1 q) := by
  unfold k1_pay1
  -- the first product: its left operand is the block recast to its own shape
  have hm1 : matmul dot_S2000x128_S128x128_S2000x128_1_1_0_0_n_n none
        (truncf FTy.bf16 (shapeCast S2000x128 a shapeCasts_S2000x128_S2000x128) bitsLt_bf16_f32)
        (truncf FTy.bf16 w bitsLt_bf16_f32) (constant (F := Ideal) S2000x128 FTy.f32 0#32) (ix2 p q)
      = ∑ k : Fin 128, a (ix2 p k) * w (ix2 q k) := by
    rw [shapeCast_self]
    exact Cert.LibDotNT.mm_nt 2000 128 128 (truncf FTy.bf16 a bitsLt_bf16_f32) (truncf FTy.bf16 w bitsLt_bf16_f32) p q
  -- the second product, likewise
  have hm2 : matmul dot_S2000x128_S128x128_S2000x128_1_1_0_0_n_n none
        (truncf FTy.bf16 (shapeCast S2000x128 x shapeCasts_S2000x128_S2000x128) bitsLt_bf16_f32)
        (truncf FTy.bf16 wr bitsLt_bf16_f32) (constant (F := Ideal) S2000x128 FTy.f32 0#32) (ix2 p q)
      = ∑ k : Fin 128, x (ix2 p k) * wr (ix2 q k) := by
    rw [shapeCast_self]
    exact Cert.LibDotNT.mm_nt 2000 128 128 (truncf FTy.bf16 x bitsLt_bf16_f32) (truncf FTy.bf16 wr bitsLt_bf16_f32) p q
  -- the bias: a vector of 128 entries laid out as one row, the row repeated over the 2000 rows
  have hb : broadcastTo S2000x128 (shapeCast S1x128 b shapeCasts_S128_S1x128) broadcasts_S1x128_S2000x128 (ix2 p q) = b (ix1 q) :=
    (broadcastTo_1b_ab_apply (shapeCast S1x128 b shapeCasts_S128_S1x128) broadcasts_S1x128_S2000x128 p q).trans
      (shapeCast_a_1a_apply b shapeCasts_S128_S1x128 0 q)
  exact congrArg₂ (· + ·) (congrArg₂ (· + ·) hm1 hm2) hb

/-- The same entry against the whole arrays: when the staged rows p of the two row blocks are row n of their arrays and
    the weights and the bias are staged whole, the stored entry (p, q) is the dense part at (n, q). -/
theorem block_entry1 (A X : (⟨2, ![50000, 128]⟩ : Shape).Idx → EReal) (W WR : (⟨2, ![128, 128]⟩ : Shape).Idx → EReal)
    (B : (⟨1, ![128]⟩ : Shape).Idx → EReal)
    (a x : Vec Ideal S2000x128 .f32) (w wr : Vec Ideal S128x128 .f32) (b : Vec Ideal S128 .f32)
    (p : Fin 2000) (q : Fin 128) (n : Fin 50000)
    (ha : ∀ k : Fin 128, a (ix2 p k) = A (ix2 n k)) (hx : ∀ k : Fin 128, x (ix2 p k) = X (ix2 n k))
    (hw : ∀ k : Fin 128, w (ix2 q k) = W (ix2 q k)) (hwr : ∀ k : Fin 128, wr (ix2 q k) = WR (ix2 q k))
    (hb : b (ix1 q) = B (ix1 q)) :
    k1_pay1 a x w wr b (ix2 p q) = Cert.Spec.dense 50000 128 128 A X W B WR (ix2 n q) := by
  rw [pay1_apply, Cert.Spec.dense_ix2]
  unfold Cert.Spec.denseAt
  simp only [ha, hx, hw, hwr, hb]

end Payload1

/-! ## From blocks to the array -/

variable (V : (c : Dev nD) → (b : Ref sig .tc) → Buf (Elt Ideal) ((c : Thread nD τ).loc b))

theorem hz1_2 : (![0, 0] : Fin 2 → Nat) = fun _ => 0 := funext fun a => by fin_cases a <;> rfl
theorem hz1_1 : (![0] : Fin 1 → Nat) = fun _ => 0 := funext fun a => by fin_cases a <;> rfl

/-- The block indices at point t, decided over the 25 points: the two row-blocked inputs and the output are at block
    (t, 0); the weights and the bias are at block 0 on every axis. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of window 0's block at point t is row 2000t + p of its array: an element of a block sits at block index ×
    block size + its own coordinate. -/
theorem rows1_0 (c : Dev nD) (t : Fin cfg1.N) (p : Fin 2000) (k : Fin 128) (n : Fin 50000) (hn : n.val = 2000 * t.val + p.val) :
    (iblk1 V c 0 t : Vec Ideal S2000x128 .f32) (ix2 p k) = (V c main_v30 : S50000x128.Idx → EReal) (ix2 n k) := by
  obtain ⟨e00, e01, -⟩ := idx_facts1 t
  show V c main_v30 (((cfg1.win 0).blk t).view.emb (ix2 p k)) = V c main_v30 (ix2 n k)
  refine congrArg (V c main_v30) (funext fun a => Fin.ext ?_)
  match a with
  | ⟨0, _⟩ => show win1_0.index t (0 : Fin 2) * 2000 + 1 * p.val = n.val; omega
  | ⟨1, _⟩ => show win1_0.index t (1 : Fin 2) * 128 + 1 * k.val = k.val; omega

/-- The same for window 1. -/
theorem rows1_1 (c : Dev nD) (t : Fin cfg1.N) (p : Fin 2000) (k : Fin 128) (n : Fin 50000) (hn : n.val = 2000 * t.val + p.val) :
    (iblk1 V c 1 t : Vec Ideal S2000x128 .f32) (ix2 p k) = (V c main_v17 : S50000x128.Idx → EReal) (ix2 n k) := by
  obtain ⟨-, -, e10, e11, -⟩ := idx_facts1 t
  show V c main_v17 (((cfg1.win 1).blk t).view.emb (ix2 p k)) = V c main_v17 (ix2 n k)
  refine congrArg (V c main_v17) (funext fun a => Fin.ext ?_)
  match a with
  | ⟨0, _⟩ => show win1_1.index t (0 : Fin 2) * 2000 + 1 * p.val = n.val; omega
  | ⟨1, _⟩ => show win1_1.index t (1 : Fin 2) * 128 + 1 * k.val = k.val; omega

/-- Window 2's block at every point is its whole array. -/
theorem whole1_2 (c : Dev nD) (t : Fin cfg1.N) (q : Fin 128) (k : Fin 128) :
    (iblk1 V c 2 t : Vec Ideal S128x128 .f32) (ix2 q k) = (V c main_arg7 : S128x128.Idx → EReal) (ix2 q k) := by
  obtain ⟨-, -, -, -, e20, e21, -⟩ := idx_facts1 t
  show V c main_arg7 (((cfg1.win 2).blk t).view.emb (ix2 q k)) = V c main_arg7 (ix2 q k)
  refine congrArg (V c main_arg7) (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

/-- Window 3's block at every point is its whole array. -/
theorem whole1_3 (c : Dev nD) (t : Fin cfg1.N) (q : Fin 128) :
    (iblk1 V c 3 t : Vec Ideal S128 .f32) (ix1 q) = (V c main_arg8 : S128.Idx → EReal) (ix1 q) := by
  obtain ⟨-, -, -, -, -, -, e30, -⟩ := idx_facts1 t
  show V c main_arg8 (((cfg1.win 3).blk t).view.emb (ix1 q)) = V c main_arg8 (ix1 q)
  refine congrArg (V c main_arg8) (funext fun a => Fin.ext ?_)
  match a with
  | ⟨0, _⟩ => show win1_3.index t (0 : Fin 1) * 128 + 1 * q.val = q.val; omega

/-- Window 4's block at every point is its whole array. -/
theorem whole1_4 (c : Dev nD) (t : Fin cfg1.N) (q : Fin 128) (k : Fin 128) :
    (iblk1 V c 4 t : Vec Ideal S128x128 .f32) (ix2 q k) = (V c main_arg9 : S128x128.Idx → EReal) (ix2 q k) := by
  obtain ⟨-, -, -, -, -, -, -, e40, e41, -⟩ := idx_facts1 t
  show V c main_arg9 (((cfg1.win 4).blk t).view.emb (ix2 q k)) = V c main_arg9 (ix2 q k)
  refine congrArg (V c main_arg9) (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

/-- What point t writes back is block t of the dense part of the arrays the region finds: entry (p, q)
    of the stored block is the value at row 2000t + p, feature q. -/
theorem flushed1_eq (c : Dev nD) (t : Fin cfg1.N) :
    (dat1 (F := Ideal) V c).flushed 5 t = ((cfg1.win 5).blk t).view.read (Elt Ideal)
      (Cert.Spec.dense 50000 128 128 (V c main_v30) (V c main_v17) (V c main_arg7) (V c main_arg8) (V c main_arg9)) := by
  show (cfg1.win 5).cut (grid1.coords t) ((dat1 V c).after 5 t) = _
  rw [after1_5]
  unfold out1_5
  rw [View.canon_unit_zero hz1_2]
  simp only [View.ld_unit_zero (S := S2000x128) hz1_2, View.ld_unit_zero (S := S128x128) hz1_2, View.ld_unit_zero (S := S128) hz1_1]
  obtain ⟨-, -, -, -, -, -, -, -, -, e50, e51⟩ := idx_facts1 t
  have ht : t.val < 25 := lt_of_lt_of_eq t.isLt N_1
  funext j
  have hj0 : (j 0).val < 2000 := (j 0).isLt
  have hj1 : (j 1).val < 128 := (j 1).isLt
  have hn : 2000 * t.val + (j 0).val < 50000 := by omega
  -- the block's entry j sits in the array at row 2000t + j₀, column j₁
  have hemb : ((cfg1.win 5).blk t).view.emb j = ix2 (⟨2000 * t.val + (j 0).val, hn⟩ : Fin 50000) (⟨(j 1).val, hj1⟩ : Fin 128) := by
    funext a; apply Fin.ext
    match a with
    | ⟨0, _⟩ => show win1_5.index t (0 : Fin 2) * 2000 + 1 * (j 0).val = 2000 * t.val + (j 0).val; omega
    | ⟨1, _⟩ => show win1_5.index t (1 : Fin 2) * 128 + 1 * (j 1).val = (j 1).val; omega
  -- and in the staging buffer at (j₀, j₁)
  have hx : (cfg1.win 5).xinj (grid1.coords t) j = ix2 (⟨(j 0).val, hj0⟩ : Fin 2000) (⟨(j 1).val, hj1⟩ : Fin 128) :=
    funext fun a => match a with | ⟨0, _⟩ => rfl | ⟨1, _⟩ => rfl
  refine (congrArg (k1_pay1 (iblk1 V c 0 t) (iblk1 V c 1 t) (iblk1 V c 2 t) (iblk1 V c 4 t) (iblk1 V c 3 t)) hx).trans ?_
  refine Eq.trans ?_ (congrArg (Cert.Spec.dense 50000 128 128 (V c main_v30) (V c main_v17) (V c main_arg7) (V c main_arg8) (V c main_arg9)) hemb).symm
  exact block_entry1 (V c main_v30) (V c main_v17) (V c main_arg7) (V c main_arg9) (V c main_arg8)
    (iblk1 V c 0 t) (iblk1 V c 1 t) (iblk1 V c 2 t) (iblk1 V c 4 t) (iblk1 V c 3 t) ⟨(j 0).val, hj0⟩ ⟨(j 1).val, hj1⟩ ⟨2000 * t.val + (j 0).val, hn⟩
    (fun k => rows1_0 V c t _ k _ rfl) (fun k => rows1_1 V c t _ k _ rfl)
    (fun k => whole1_2 V c t _ k) (fun k => whole1_4 V c t _ k) (whole1_3 V c t _)

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v31).slice (win1_5.rect t)).set ↔ _
  rw [View.set_slice_whole, Rect.mem_set_unit]
  exact Iff.rfl

/-- Every entry of the output array is written back by some point: row r by point r / 2000. -/
theorem cover1 (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  have hN : (i 0).val / 2000 < cfg1.N := by rw [show cfg1.N = 25 from N_1]; omega
  obtain ⟨-, -, -, -, -, -, -, -, -, e50, e51⟩ := idx_facts1 ⟨(i 0).val / 2000, hN⟩
  have e50' : win1_5.index ⟨(i 0).val / 2000, hN⟩ (0 : Fin 2) = (i 0).val / 2000 := e50
  refine ⟨⟨(i 0).val / 2000, hN⟩, flush1_5 _, ?_⟩
  rw [mem_blk1]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    omega

/-- The output array after the region's last point: the second layer's dense part, of the arrays the region finds, at
    every entry. -/
theorem final1 (c : Dev nD) : (dat1 (F := Ideal) V c).arrAt 5 cfg1.N
    = Cert.Spec.dense 50000 128 128 (V c main_v30) (V c main_v17) (V c main_arg7) (V c main_arg8) (V c main_arg9) :=
  (dat1 (F := Ideal) V c).arrAt_eq_of_cover 5 _ (fun t _ => flushed1_eq V c t) cover1

end Cert.KernelIdeal.Val

end
-- ==== Proof.FrameKI.Reg2Val.lean ====
import proofs.«403164_j18090402251169_3_alg».proof.Proof.FrameKI.Reg2
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (pipeline 2): what its pieces are

The accumulator after the first point is the first product added to zeros; after every later point it is that point's
product added to what the point before left; and the output block the last point stores is the closing computation
(normalise by the counts, weigh, reduce along the lanes, add the bias, clamp at zero) of the accumulator. -/

variable (V : (c : Dev nD) → (b : Ref sig .tc) → Buf (Elt F) ((c : Thread nD τ).loc b))

/-! ## What the pieces are -/

theorem hz2 : (![0, 0] : Fin 2 → Nat) = fun _ => 0 := funext fun a => by fin_cases a <;> rfl
theorem hz1 : (![0] : Fin 1 → Nat) = fun _ => 0 := funext fun a => by fin_cases a <;> rfl

/-- The first point leaves in the accumulator the first product added to the zeros it has just stored and read back. -/
theorem sout2_A (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : cond2_0 i) (hc1 : ¬cond2_1 i)
    (x0 : Vec F S2000x256 .f32) (x1 : Vec F S2000x128 .f32) (x2 : Vec F S256x1 .f32) (x3 : Vec F S1x128 .f32) (x4 : Vec F S1 .f32) :
    sout2_A_0 c i arg1 harg1 arg2 harg2 arg3 harg3 arg4 harg4 arg5 harg5 arg6 harg6 arg7 harg7 hc0 hc1 x0 x1 x2 x3 x4 = k2_pay2 x0 x1 k2_pay1 := by
  unfold sout2_A_0
  rw [View.read_writes_eq_canon _ _ _ (scover2_A_0 c i arg1 harg1 arg2 harg2 arg3 harg3 arg4 harg4 arg5 harg5 arg6 harg6 arg7 harg7 hc0 hc1 x0 x1 x2 x3 x4)]
  unfold kernelRun2_A
  dsimp only
  sl_unfold_words
  rw [View.canon_cons_unit_zero (S := S256x128) hz2, View.readCov_unit_zero (S := S256x128) _ hz2]
  simp only [View.readAt_eq_ld, harg1.read_unread, harg2.read_unread, View.ld_unit_zero (S := S2000x256) hz2, View.ld_unit_zero (S := S2000x128) hz2]

/-- A middle point leaves in the accumulator its product added to what the point before left. -/
theorem sout2_B (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : ¬cond2_1 i)
    (x0 : Vec F S2000x256 .f32) (x1 : Vec F S2000x128 .f32) (x2 : Vec F S256x1 .f32) (x3 : Vec F S1x128 .f32) (x4 : Vec F S1 .f32) (xs0 : Vec F S256x128 .f32) :
    sout2_B_0 c i arg1 harg1 arg2 harg2 arg3 harg3 arg4 harg4 arg5 harg5 arg6 harg6 arg7 harg7 hc0 hc1 x0 x1 x2 x3 x4 xs0 = k2_pay2 x0 x1 xs0 := by
  unfold sout2_B_0
  rw [View.read_writes_eq_canon _ _ _ (scover2_B_0 c i arg1 harg1 arg2 harg2 arg3 harg3 arg4 harg4 arg5 harg5 arg6 harg6 arg7 harg7 hc0 hc1 x0 x1 x2 x3 x4 xs0)]
  unfold kernelRun2_B
  dsimp only
  sl_unfold_words
  rw [View.canon_unit_zero hz2]
  simp only [View.readAt_eq_ld, harg1.read_unread, harg2.read_unread, harg7.read_unread, View.ld_unit_zero (S := S2000x256) hz2, View.ld_unit_zero (S := S2000x128) hz2, View.ld_unit_zero (S := S256x128) hz2]

/-- So does the last point. -/
theorem sout2_C (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) :
    sout2_C_0 c i arg1 harg1 arg2 harg2 arg3 harg3 arg4 harg4 arg5 harg5 arg6 harg6 arg7 harg7 hc0 hc1 x0 x1 x2 x3 x4 xs0 = k2_pay2 x0 x1 xs0 := by
  unfold sout2_C_0
  rw [View.read_writes_eq_canon _ _ _ (scover2_C_0 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero hz2]
  simp only [View.readAt_eq_ld, harg1.read_unread, harg2.read_unread, harg7.read_unread, View.ld_unit_zero (S := S2000x256) hz2, View.ld_unit_zero (S := S2000x128) hz2, View.ld_unit_zero (S := S256x128) hz2]

/-- The last point leaves in the output's buffer the closing computation of the accumulator it has just stored and read
    back, with the three small arrays. -/
theorem out2_C (c : Dev nD) (i : grid2.Coords) (arg1 : Memref sig .tc .vmem S2000x256 .f32) (harg1 : arg1.IsWhole) (arg2 : Memref sig .tc .vmem S2000x128 .f32) (harg2 : arg2.IsWhole) (arg3 : Memref sig .tc .vmem S256x1 .f32) (harg3 : arg3.IsWhole) (arg4 : Memref sig .tc .vmem S1x128 .f32) (harg4 : arg4.IsWhole) (arg5 : Memref sig .tc .vmem S1 .f32) (harg5 : arg5.IsWhole) (arg6 : Memref sig .tc .vmem S256x1 .f32) (harg6 : arg6.IsWhole) (arg7 : Memref sig .tc .vmem S256x128 .f32) (harg7 : arg7.IsWhole) (hc0 : ¬cond2_0 i) (hc1 : cond2_1 i)
    (x0 : Vec F S2000x256 .f32) (x1 : Vec F S2000x128 .f32) (x2 : Vec F S256x1 .f32) (x3 : Vec F S1x128 .f32) (x4 : Vec F S1 .f32) (xs0 : Vec F S256x128 .f32) :
    out2_C_5 c i arg1 harg1 arg2 harg2 arg3 harg3 arg4 harg4 arg5 harg5 arg6 harg6 arg7 harg7 hc0 hc1 x0 x1 x2 x3 x4 xs0 = k2_pay3 (sout2_C_0 c i arg1 harg1 arg2 harg2 arg3 harg3 arg4 harg4 arg5 harg5 arg6 harg6 arg7 harg7 hc0 hc1 x0 x1 x2 x3 x4 xs0) x2 x3 x4 := by
  rw [sout2_C c i arg1 harg1 arg2 harg2 arg3 harg3 arg4 harg4 arg5 harg5 arg6 harg6 arg7 harg7 hc0 hc1 x0 x1 x2 x3 x4 xs0]
  unfold out2_C_5
  rw [View.read_writes_eq_canon _ _ _ (cover2_C_5 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero hz2]
  simp only [View.readAt_eq_ld, harg1.read_unread, harg2.read_unread, harg3.read_unread, harg4.read_unread, harg5.read_unread, harg7.read_unread, View.readCov_unit_zero (S := S256x128) _ hz2, View.ld_unit_zero (S := S2000x256) hz2, View.ld_unit_zero (S := S2000x128) hz2, View.ld_unit_zero (S := S256x128) hz2, View.ld_unit_zero (S := S256x1) hz2, View.ld_unit_zero (S := S1x128) hz2, View.ld_unit_zero (S := S1) hz1]

/-! ## The accumulator and the output, point by point -/

/-- After the first point the accumulator holds the first product added to zeros. -/
theorem scr2_first (c : Dev nD) (t : Fin cfg2.N) (h0 : t.val % 25 = 0) :
    (outsAt2 V c t.val t.isLt).2 = k2_pay2 (iblk2 V c 0 t) (iblk2 V c 1 t) k2_pay1 := by
  have hN : t.val < 25 := lt_of_lt_of_eq t.isLt (show cfg2.N = 25 from N_2)
  have h1 : ¬t.val % 25 = 24 := by omega
  rw [outsAt2_A V c t h0 h1]; dsimp only
  exact sout2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)

/-- After any later point it holds that point's product added to what the point before left. -/
theorem scr2_later (c : Dev nD) (t : Fin cfg2.N) (h0 : ¬t.val % 25 = 0) :
    (outsAt2 V c t.val t.isLt).2 = k2_pay2 (iblk2 V c 0 t) (iblk2 V c 1 t) (outsAt2 V c (t.val - 1) (Nat.lt_of_le_of_lt (Nat.sub_le _ _) t.isLt)).2 := by
  by_cases h1 : t.val % 25 = 24
  · rw [outsAt2_C V c t h0 h1]; dsimp only
    exact sout2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2
  · rw [outsAt2_B V c t h0 h1]; dsimp only
    exact sout2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2

/-- After the last point the output's buffer holds the closing computation of the accumulator. -/
theorem out2_at_last (c : Dev nD) (t : Fin cfg2.N) (h0 : ¬t.val % 25 = 0) (h1 : t.val % 25 = 24) :
    (outsAt2 V c t.val t.isLt).1 = k2_pay3 (outsAt2 V c t.val t.isLt).2 (iblk2 V c 2 t) (iblk2 V c 3 t) (iblk2 V c 4 t) := by
  rw [outsAt2_C V c t h0 h1]; dsimp only
  exact out2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2

theorem scr2_zero (c : Dev nD) (h : 0 < cfg2.N) : (outsAt2 V c 0 h).2 = k2_pay2 (iblk2 V c 0 ⟨0, h⟩) (iblk2 V c 1 ⟨0, h⟩) k2_pay1 :=
  scr2_first V c ⟨0, h⟩ (Nat.zero_mod _)

theorem scr2_succ (c : Dev nD) (n : ℕ) (h : n + 1 < cfg2.N) : (outsAt2 V c (n + 1) h).2 = k2_pay2 (iblk2 V c 0 ⟨n + 1, h⟩) (iblk2 V c 1 ⟨n + 1, h⟩) (outsAt2 V c n (Nat.lt_of_succ_lt h)).2 :=
  scr2_later V c ⟨n + 1, h⟩ (by
    have hN : n + 1 < 25 := lt_of_lt_of_eq h (show cfg2.N = 25 from N_2)
    show ¬(n + 1) % 25 = 0; omega)

theorem out2_last (c : Dev nD) (h : 24 < cfg2.N) : (outsAt2 V c 24 h).1 = k2_pay3 (outsAt2 V c 24 h).2 (iblk2 V c 2 ⟨24, h⟩) (iblk2 V c 3 ⟨24, h⟩) (iblk2 V c 4 ⟨24, h⟩) :=
  out2_at_last V c ⟨24, h⟩ (by show ¬24 % 25 = 0; decide) (by show 24 % 25 = 24; decide)

end Cert.KernelIdeal.Fr

end
-- ==== Proof.Val.PoolArr.lean ====
/-
  The third region's result array after the run.

  The region's grid has 25 points. Its output window over the 256 × 1 result array has ONE block, the whole array, at
  block index (0, 0) at every point, and is written back at the last point only (point 24). So the array after the run
  is what the body left in the window's buffer at the last point: the one write-back overwrites every element, with
  exactly that block, and no other point writes the array.
-/
import proofs.«403164_j18090402251169_3_alg».proof.Proof.FrameKI.Reg2
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe
open Idealize.ShloMosaic.Pipeline (Dat Cfg Window)

variable {F : FTy → Type} [FloatOps F]
variable (V : (c : Dev nD) → (b : Ref sig .tc) → Buf (Elt F) ((c : Thread nD τ).loc b))

/-- Point 24 is a point of the 25-point grid. -/
theorem last2_lt : 24 < cfg2.N := by rw [show cfg2.N = 25 from N_2]; decide

/-- The output window's block index is (0, 0) at every grid point, so its block starts at offset zero on both axes. -/
theorem off2_5 (t : Fin grid2.N) : (fun a : Fin 2 => win2_5.index t a * S256x1.size a) = fun _ => 0 := by
  funext a
  match a with
  | ⟨0, _⟩ => rfl
  | ⟨1, _⟩ => rfl

/-- The block, of the array's own extents, lies inside the array. -/
theorem inb2_5 (t : Fin grid2.N) (a : Fin 2) : win2_5.index t a * S256x1.size a + S256x1.size a ≤ S256x1.size a := by
  rw [congrFun (off2_5 t) a, Nat.zero_add]

/-- Read through the window's block at any point, contents of the array are themselves: the block is the array. -/
theorem read_blk2_5 (t : Fin cfg2.N) (X : Vec F S256x1 .f32) : ((cfg2.win 5).blk t).view.read (Elt F) X = X :=
  Memref.read_access_unit_zero (Elt F) main_v46 (off2_5 t) (inb2_5 t) X

/-- Every element of the array is under the window's block, at any point. -/
theorem mem_blk2_5 (c : Dev nD) (t : Fin cfg2.N) (i : ((cfg2.win 5).arr.view.loc (c.tc : Thread nD τ)).2.ty.Idx) :
    i ∈ ((cfg2.win 5).blk t).view.set := by
  show i ∈ ((View.whole main_v46).slice (win2_5.rect t)).set
  rw [View.set_slice_whole]
  exact View.mem_set_unit_zero (off2_5 t) (inb2_5 t) i

/-- The only point that writes the window back is point 24. -/
theorem flush2_5_last (t : Fin cfg2.N) (hf : (cfg2.win 5).flush t = true) : t = ⟨24, last2_lt⟩ := by
  have h1 := (flush2_5 t).mp hf
  have h2 : t.val < 25 := lt_of_lt_of_eq t.isLt N_2
  exact Fin.ext (by show t.val = 24; omega)

/-- The result array after the run is what the body left in the output window's buffer at the last point, whatever
    that is (`X`): the one write-back, at point 24, writes that whole block over the whole array. Stated over a
    variable so that the contents at the late point are never opened. -/
theorem arr2_last_of (c : Dev nD) (X : Vec F S256x1 .f32) (hX : (dat2 V c).after 5 ⟨24, last2_lt⟩ = X) :
    (dat2 V c).arrAt 5 cfg2.N = X := by
  refine (dat2 V c).arrAt_eq_of_cover 5 X ?_ ?_
  · intro t hf
    obtain rfl : t = ⟨24, last2_lt⟩ := flush2_5_last t hf
    show (cfg2.win 5).cut (cfg2.grid.coords ⟨24, last2_lt⟩) ((dat2 V c).after 5 ⟨24, last2_lt⟩) = _
    rw [hX]
    exact (read_blk2_5 ⟨24, last2_lt⟩ X).symm
  · intro i
    exact ⟨⟨24, last2_lt⟩, (flush2_5 _).mpr rfl, mem_blk2_5 c _ i⟩

/-- The same with the contents named: the output component of what point 24 leaves. -/
theorem arr2_last (c : Dev nD) (h : 24 < cfg2.N) : (dat2 V c).arrAt 5 cfg2.N = (outsAt2 V c 24 h).1 :=
  arr2_last_of V c _ (after2_5 V c ⟨24, last2_lt⟩)

end Cert.KernelIdeal.Val

end
-- ==== Proof.Val.Pool.lean ====
/-
  The value of the pooled head: the third kernel region, read at the ideal instance.

  The region walks 25 row blocks of 2000 nodes. A 256 x 128 accumulator is zeroed at the first block, and at every
  block t it gains, at entry (g, k), the sum over the block's rows r of membership(2000 t + r, g) * h(2000 t + r, k):
  the product of the membership block's transpose with the feature block, both operands contracted on their row axis.
  After the last block every one of the 50000 rows has been added once, so the accumulator holds the member sums
  Σₙ membership(n, g) * h(n, k). The head then divides row g by the count of graph g, multiplies lane k by the weight's
  lane k, sums the 128 lanes, adds the bias, and takes the maximum with zero; that column is written to the result array
  once, after the last block, and the array is a single block.

  Only commutativity and associativity of + on the extended reals are used (a sum over 2000 (t + 1) rows splits into the
  first 2000 t rows and the last 2000), and 0 + x = x for the zeroed start; no entry needs to be finite.
-/
import proofs.«403164_j18090402251169_3_alg».proof.Proof.FrameKI.Reg2Val
import proofs.«403164_j18090402251169_3_alg».proof.Proof.Val.PoolArr
import proofs.«403164_j18090402251169_3_alg».proof.Proof.Val.Spec
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Algebra.BigOperators.Intervals

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe
open Idealize.ShloMosaic.Pipeline (Dat)

/-! ## The product contracted on the row axis of both operands, at one entry

For a 2000 x 256 left operand l and a 2000 x 128 right operand r, both contracted on axis 0, entry (g, k) of the
product is Σᵣ l(r, g) * r(r, k): at output entry (g, k) and contraction position r the left operand is read at (r, g) —
the contraction position on axis 0, the output's row on axis 1 — and the right operand at (r, k). -/

/-- Axis 0 of the left operand's index is the contraction position. -/
theorem lhs_tn_0 (i : S256x128.Idx) (q : dot_S2000x256_S2000x128_S256x128_0_0_1_1_n_n.contr.Idx) :
    (dot_S2000x256_S2000x128_S256x128_0_0_1_1_n_n.lhsIdx i q 0).val = (q ⟨0, Nat.one_pos⟩).val :=
  dot_S2000x256_S2000x128_S256x128_0_0_1_1_n_n.lhsIdx_val_of_single rfl i q

/-- Axis 1 of the left operand's index is the output's row. -/
theorem lhs_tn_1 (i : S256x128.Idx) (q : dot_S2000x256_S2000x128_S256x128_0_0_1_1_n_n.contr.Idx) :
    (dot_S2000x256_S2000x128_S256x128_0_0_1_1_n_n.lhsIdx i q 1).val = (i 0).val := by
  unfold DotDims.lhsIdx
  rw [dif_neg (show ¬(1 : Fin S2000x256.rank) ∈ dot_S2000x256_S2000x128_S256x128_0_0_1_1_n_n.lhsBatch from List.not_mem_nil),
    dif_pos (show (1 : Fin S2000x256.rank) ∈ dot_S2000x256_S2000x128_S256x128_0_0_1_1_n_n.lhsNonContracting from
      List.mem_singleton.mpr rfl)]
  rfl

/-- Axis 0 of the right operand's index is the contraction position. -/
theorem rhs_tn_0 (i : S256x128.Idx) (q : dot_S2000x256_S2000x128_S256x128_0_0_1_1_n_n.contr.Idx) :
    (dot_S2000x256_S2000x128_S256x128_0_0_1_1_n_n.rhsIdx i q 0).val = (q ⟨0, Nat.one_pos⟩).val :=
  dot_S2000x256_S2000x128_S256x128_0_0_1_1_n_n.rhsIdx_val_of_single rfl i q

/-- Axis 1 of the right operand's index is the output's column. -/
theorem rhs_tn_1 (i : S256x128.Idx) (q : dot_S2000x256_S2000x128_S256x128_0_0_1_1_n_n.contr.Idx) :
    (dot_S2000x256_S2000x128_S256x128_0_0_1_1_n_n.rhsIdx i q 1).val = (i 1).val := by
  unfold DotDims.rhsIdx
  rw [dif_neg (show ¬(1 : Fin S2000x128.rank) ∈ dot_S2000x256_S2000x128_S256x128_0_0_1_1_n_n.rhsBatch from List.not_mem_nil),
    dif_pos (show (1 : Fin S2000x128.rank) ∈ dot_S2000x256_S2000x128_S256x128_0_0_1_1_n_n.rhsNonContracting from
      List.mem_singleton.mpr rfl)]
  rfl

/-- At output entry (g, k) and contraction position r the left operand is read at (r, g). -/
theorem lhsIdx_tn (g : Fin 256) (k : Fin 128) (r : Fin 2000) :
    dot_S2000x256_S2000x128_S256x128_0_0_1_1_n_n.lhsIdx (ix2 g k)
      ((contrEquiv1 dot_S2000x256_S2000x128_S256x128_0_0_1_1_n_n 2000 rfl rfl).symm r) = ix2 r g :=
  funext fun a => Fin.ext (by
    have hr := contrEquiv1_symm_val dot_S2000x256_S2000x128_S256x128_0_0_1_1_n_n 2000 rfl rfl r
    match a with
    | ⟨0, _⟩ => exact (lhs_tn_0 _ _).trans hr
    | ⟨1, _⟩ => exact lhs_tn_1 _ _)

/-- At output entry (g, k) and contraction position r the right operand is read at (r, k). -/
theorem rhsIdx_tn (g : Fin 256) (k : Fin 128) (r : Fin 2000) :
    dot_S2000x256_S2000x128_S256x128_0_0_1_1_n_n.rhsIdx (ix2 g k)
      ((contrEquiv1 dot_S2000x256_S2000x128_S256x128_0_0_1_1_n_n 2000 rfl rfl).symm r) = ix2 r k :=
  funext fun a => Fin.ext (by
    have hr := contrEquiv1_symm_val dot_S2000x256_S2000x128_S256x128_0_0_1_1_n_n 2000 rfl rfl r
    match a with
    | ⟨0, _⟩ => exact (rhs_tn_0 _ _).trans hr
    | ⟨1, _⟩ => exact rhs_tn_1 _ _)

/-- Entry (g, k) of the product into a zero accumulator: Σᵣ l(r, g) * r(r, k). -/
theorem mm_tn {φ₁ φ₂ : FTy} (l : FVec Ideal S2000x256 φ₁) (r : FVec Ideal S2000x128 φ₂) (g : Fin 256) (k : Fin 128) :
    matmul dot_S2000x256_S2000x128_S256x128_0_0_1_1_n_n none l r (constant (F := Ideal) S256x128 .f32 0x00000000#32) (ix2 g k)
      = ∑ q : Fin 2000, l (ix2 q g) * r (ix2 q k) := by
  refine (Ideal.matmul_constant_zero_apply dot_S2000x256_S2000x128_S256x128_0_0_1_1_n_n none l r _).trans ?_
  rw [← Equiv.sum_comp (contrEquiv1 dot_S2000x256_S2000x128_S256x128_0_0_1_1_n_n 2000 rfl rfl).symm]
  refine Finset.sum_congr rfl fun q _ => ?_
  rw [lhsIdx_tn, rhsIdx_tn]

/-! ## The arrays and the blocks, by their literal types -/

variable (V : (c : Dev nD) → (b : Ref sig .tc) → Buf (Elt Ideal) ((c : Thread nD τ).loc b))

/-- The membership matrix: entry (n, g) says whether node n belongs to graph g. -/
abbrev memArr (c : Dev nD) : Vec Ideal S50000x256 .f32 := V c main_v38
/-- The node features. -/
abbrev featArr (c : Dev nD) : Vec Ideal S50000x128 .f32 := V c main_v31
/-- The counts, a column. -/
abbrev cntArr (c : Dev nD) : Vec Ideal S256x1 .f32 := V c main_v45
/-- The head's weight row. -/
abbrev wArr (c : Dev nD) : Vec Ideal S1x128 .f32 := V c main_arg10
/-- The head's bias. -/
abbrev bArr (c : Dev nD) : Vec Ideal S1 .f32 := V c main_arg11

/-- Row block t of the membership matrix, as the region stages it. -/
abbrev memBlk (c : Dev nD) (t : Fin cfg2.N) : Vec Ideal S2000x256 .f32 := iblk2 V c 0 t
/-- Row block t of the node features. -/
abbrev featBlk (c : Dev nD) (t : Fin cfg2.N) : Vec Ideal S2000x128 .f32 := iblk2 V c 1 t
/-- The counts as staged at point t. -/
abbrev cntBlk (c : Dev nD) (t : Fin cfg2.N) : Vec Ideal S256x1 .f32 := iblk2 V c 2 t
/-- The weight row as staged at point t. -/
abbrev wBlk (c : Dev nD) (t : Fin cfg2.N) : Vec Ideal S1x128 .f32 := iblk2 V c 3 t
/-- The bias as staged at point t. -/
abbrev bBlk (c : Dev nD) (t : Fin cfg2.N) : Vec Ideal S1 .f32 := iblk2 V c 4 t

/-! ## From blocks to the arrays

A block's coordinate in its array is, on each axis, the block index times the block's size plus the coordinate inside
the block. The two row-blocked windows move along axis 0 with the grid point and stay at 0 on axis 1; the three small
windows and the output stay at block (0, 0). Decided once over the 25 points. -/

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

theorem N2 : cfg2.N = 25 := N_2

/-- Row r of membership block t is row 2000 t + r of the matrix. -/
theorem memBlk_apply (c : Dev nD) (t : Fin cfg2.N) (r : Fin 2000) (g : Fin 256) (n : Fin 50000)
    (hn : n.val = 2000 * t.val + r.val) : memBlk V c t (ix2 r g) = memArr V c (ix2 n g) := by
  obtain ⟨e0, e1, -⟩ := idx_facts2 t
  show V c main_v38 (((cfg2.win 0).blk t).view.emb (ix2 r g)) = V c main_v38 (ix2 n g)
  refine congrArg (V c main_v38) (funext fun a => Fin.ext ?_)
  match a with
  | ⟨0, _⟩ => show win2_0.index t (0 : Fin 2) * 2000 + 1 * r.val = n.val; omega
  | ⟨1, _⟩ => show win2_0.index t (1 : Fin 2) * 256 + 1 * g.val = g.val; omega

/-- Row r of feature block t is row 2000 t + r of the features. -/
theorem featBlk_apply (c : Dev nD) (t : Fin cfg2.N) (r : Fin 2000) (k : Fin 128) (n : Fin 50000)
    (hn : n.val = 2000 * t.val + r.val) : featBlk V c t (ix2 r k) = featArr V c (ix2 n k) := by
  obtain ⟨-, -, e0, e1, -⟩ := idx_facts2 t
  show V c main_v31 (((cfg2.win 1).blk t).view.emb (ix2 r k)) = V c main_v31 (ix2 n k)
  refine congrArg (V c main_v31) (funext fun a => Fin.ext ?_)
  match a with
  | ⟨0, _⟩ => show win2_1.index t (0 : Fin 2) * 2000 + 1 * r.val = n.val; omega
  | ⟨1, _⟩ => show win2_1.index t (1 : Fin 2) * 128 + 1 * k.val = k.val; omega

/-- The staged counts are the counts. -/
theorem cntBlk_apply (c : Dev nD) (t : Fin cfg2.N) (g : Fin 256) (z : Fin 1) :
    cntBlk V c t (ix2 g z) = cntArr V c (ix2 g z) := by
  obtain ⟨-, -, -, -, e0, e1, -⟩ := idx_facts2 t
  show V c main_v45 (((cfg2.win 2).blk t).view.emb (ix2 g z)) = V c main_v45 (ix2 g z)
  refine congrArg (V c main_v45) (funext fun a => Fin.ext ?_)
  match a with
  | ⟨0, _⟩ => show win2_2.index t (0 : Fin 2) * 256 + 1 * g.val = g.val; omega
  | ⟨1, _⟩ => show win2_2.index t (1 : Fin 2) * 1 + 1 * z.val = z.val; omega

/-- The staged weight row is the weight row. -/
theorem wBlk_apply (c : Dev nD) (t : Fin cfg2.N) (z : Fin 1) (k : Fin 128) :
    wBlk V c t (ix2 z k) = wArr V c (ix2 z k) := by
  obtain ⟨-, -, -, -, -, -, e0, e1, -⟩ := idx_facts2 t
  show V c main_arg10 (((cfg2.win 3).blk t).view.emb (ix2 z k)) = V c main_arg10 (ix2 z k)
  refine congrArg (V c main_arg10) (funext fun a => Fin.ext ?_)
  match a with
  | ⟨0, _⟩ => show win2_3.index t (0 : Fin 2) * 1 + 1 * z.val = z.val; omega
  | ⟨1, _⟩ => show win2_3.index t (1 : Fin 2) * 128 + 1 * k.val = k.val; omega

/-- The staged bias is the bias. -/
theorem bBlk_apply (c : Dev nD) (t : Fin cfg2.N) (z : Fin 1) :
    bBlk V c t (ix1 z) = bArr V c (ix1 z) := by
  obtain ⟨-, -, -, -, -, -, -, -, e0, -⟩ := idx_facts2 t
  show V c main_arg11 (((cfg2.win 4).blk t).view.emb (ix1 z)) = V c main_arg11 (ix1 z)
  refine congrArg (V c main_arg11) (funext fun a => Fin.ext ?_)
  match a with
  | ⟨0, _⟩ => show win2_4.index t (0 : Fin 1) * 1 + 1 * z.val = z.val; omega

/-! ## The payloads at an entry -/

/-- The start of the accumulator is zero everywhere. -/
theorem pay2_zero_apply (g : Fin 256) (k : Fin 128) : (k2_pay1 (F := Ideal)) (ix2 g k) = 0 := by
  unfold k2_pay1
  rw [shapeCast_self]
  exact Ideal.ofBits_zero_f32

/-- One step of the accumulator at entry (g, k): the carried value plus Σ_q mblk(q, g) * hblk(q, k) over the block's rows
    (narrowing the operands' format changes nothing over the extended reals). -/
theorem pay2_step_apply (mblk : Vec Ideal S2000x256 .f32) (hblk : Vec Ideal S2000x128 .f32) (acc : Vec Ideal S256x128 .f32)
    (g : Fin 256) (k : Fin 128) :
    k2_pay2 mblk hblk acc (ix2 g k) = acc (ix2 g k) + ∑ q : Fin 2000, mblk (ix2 q g) * hblk (ix2 q k) := by
  unfold k2_pay2
  rw [shapeCast_self, shapeCast_self, shapeCast_self]
  refine (addf_apply _ _ _).trans ?_
  exact congrArg (acc (ix2 g k) + ·) (mm_tn _ _ g k)

/-- The lane sum's index: graph g with lane k put back is (g, k). -/
theorem lift_lane (h : S256x128.Reduces [1] S256) (g : Fin 256) (k : Fin (S256x128.size 1)) :
    h.lift (ix1 g) k = ix2 g (⟨k.val, k.isLt⟩ : Fin 128) := by
  funext c; apply Fin.ext
  match c with
  | ⟨0, _⟩ => rfl
  | ⟨1, _⟩ => rfl

/-- A length-256 vector cast to a 256 x 1 column reads, at (g, z), the vector at g. -/
theorem cast_col_apply (x : FVec Ideal S256 .f32) (h : S256.ShapeCasts S256x1) (g : Fin 256) (z : Fin 1) :
    shapeCast S256x1 x h (ix2 g z) = x (ix1 g) :=
  shapeCast_apply x h _ _ (by
    have hz : z.val = 0 := by omega
    rw [Shape.rowMajor_val_two, Shape.rowMajor_val_one]
    show g.val = g.val * 1 + z.val
    omega)

/-- A 256 x 1 column broadcast along the lanes reads, at (g, k), the column at (g, 0). -/
theorem bcast_col_apply (x : FVec Ideal S256x1 .f32) (h : S256x1.Broadcasts S256x128) (g : Fin 256) (k : Fin 128) :
    broadcastTo S256x128 x h (ix2 g k) = x (ix2 g (0 : Fin 1)) := by
  refine broadcastTo_apply x h (ix2 g k) (ix2 g (0 : Fin 1)) fun ax => ?_
  match ax with
  | ⟨0, _⟩ => rfl
  | ⟨1, _⟩ => rfl

/-- The one bias, cast to 1 x 1 and broadcast down the column, reads the bias at every (g, z). -/
theorem bcast_bias_apply (x : FVec Ideal S1 .f32) (h1 : S1.ShapeCasts S1x1) (h2 : S1x1.Broadcasts S256x1) (g : Fin 256) (z : Fin 1) :
    broadcastTo S256x1 (shapeCast S1x1 x h1) h2 (ix2 g z) = x (ix1 (0 : Fin 1)) := by
  refine (broadcastTo_apply (shapeCast S1x1 x h1) h2 (ix2 g z) (ix2 (0 : Fin 1) (0 : Fin 1)) fun ax => ?_).trans ?_
  · match ax with
    | ⟨0, _⟩ => rfl
    | ⟨1, _⟩ => rfl
  · exact shapeCast_a_1a_apply x h1 (0 : Fin 1) (0 : Fin 1)

/-- The head at (g, z) from the accumulator s, the count column, the weight row and the bias:
    max(Σₖ (s(g, k) / cnt(g, 0)) * w(0, k) + b(0), 0). -/
theorem pay2_head_apply (s : Vec Ideal S256x128 .f32) (cnt : Vec Ideal S256x1 .f32) (w : Vec Ideal S1x128 .f32) (b : Vec Ideal S1 .f32)
    (g : Fin 256) (z : Fin 1) :
    k2_pay3 s cnt w b (ix2 g z)
      = max ((∑ k : Fin 128, Ideal.div (s (ix2 g k)) (cnt (ix2 g (0 : Fin 1))) * w (ix2 (0 : Fin 1) k)) + b (ix1 (0 : Fin 1))) 0 := by
  unfold k2_pay3
  rw [shapeCast_self]
  refine (maximumf_apply _ _ _).trans ?_
  refine congrArg₂ max ?_ Ideal.ofBits_zero_f32
  refine (addf_apply _ _ _).trans ?_
  refine congrArg₂ (· + ·) ?_ (bcast_bias_apply b _ _ g z)
  refine (cast_col_apply _ _ g z).trans ?_
  refine (Ideal.multiReduction_add_single _ _ reduces_S256x128_S256 _ _ (ix1 g)).trans ?_
  refine Finset.sum_congr rfl fun k _ => ?_
  rw [lift_lane]
  refine (mulf_apply _ _ _).trans ?_
  refine congrArg₂ (· * ·) ?_ (broadcastTo_1b_ab_apply w _ g _)
  refine (divf_apply _ _ _).trans ?_
  exact congrArg (Ideal.div (s (ix2 g _))) (bcast_col_apply cnt _ g _)

/-! ## The accumulator after each block

Row n contributes membership(n, g) * h(n, k) to entry (g, k). After block t the accumulator holds the contributions of
the first 2000 (t + 1) rows: the block's product is the sum of its own 2000 rows' contributions, and a sum over
2000 (t + 1) + 2000 rows splits into the first 2000 (t + 1) and the next 2000. -/

/-- Row n's contribution to entry (g, k); zero beyond the last row. -/
def rowTerm (c : Dev nD) (g : Fin 256) (k : Fin 128) (n : ℕ) : EReal :=
  if h : n < 50000 then memArr V c (ix2 ⟨n, h⟩ g) * featArr V c (ix2 ⟨n, h⟩ k) else 0

/-- Block t's product at (g, k) is the sum of the contributions of rows 2000 t, …, 2000 t + 1999. -/
theorem blk_sum (c : Dev nD) (t : Fin cfg2.N) (g : Fin 256) (k : Fin 128) :
    ∑ q : Fin 2000, memBlk V c t (ix2 q g) * featBlk V c t (ix2 q k)
      = ∑ i ∈ Finset.range 2000, rowTerm V c g k (2000 * t.val + i) := by
  rw [Finset.sum_range]
  refine Finset.sum_congr rfl fun q _ => ?_
  have hN : cfg2.N = 25 := N2
  have ht := t.isLt
  have hq := q.isLt
  have hlt : 2000 * t.val + q.val < 50000 := by omega
  unfold rowTerm
  rw [dif_pos hlt, memBlk_apply V c t q g ⟨_, hlt⟩ rfl, featBlk_apply V c t q k ⟨_, hlt⟩ rfl]

/-- After block n the accumulator's entry (g, k) is the sum of the first 2000 (n + 1) rows' contributions. -/
theorem acc_eq (c : Dev nD) (g : Fin 256) (k : Fin 128) : ∀ (n : ℕ) (h : n < cfg2.N),
    (outsAt2 V c n h).2 (ix2 g k) = ∑ i ∈ Finset.range (2000 * (n + 1)), rowTerm V c g k i
  | 0, h => by
    rw [scr2_zero V c h]
    refine (pay2_step_apply (memBlk V c ⟨0, h⟩) (featBlk V c ⟨0, h⟩) (k2_pay1 (F := Ideal)) g k).trans ?_
    rw [pay2_zero_apply, zero_add, blk_sum]
    simp only [Nat.mul_zero, Nat.zero_add, Nat.mul_one]
  | n + 1, h => by
    rw [scr2_succ V c n h]
    refine (pay2_step_apply (memBlk V c ⟨n + 1, h⟩) (featBlk V c ⟨n + 1, h⟩) (outsAt2 V c n (Nat.lt_of_succ_lt h)).2 g k).trans ?_
    rw [acc_eq c g k n, blk_sum, show 2000 * (n + 1 + 1) = 2000 * (n + 1) + 2000 from by ring, Finset.sum_range_add]

/-- After the last block every row is in: the accumulator holds the member sums. -/
theorem acc_last (c : Dev nD) (g : Fin 256) (k : Fin 128) (h : 24 < cfg2.N) :
    (outsAt2 V c 24 h).2 (ix2 g k) = ∑ n : Fin 50000, memArr V c (ix2 n g) * featArr V c (ix2 n k) := by
  rw [acc_eq V c g k 24 h, show 2000 * (24 + 1) = 50000 from rfl, Finset.sum_range]
  refine Finset.sum_congr rfl fun n _ => ?_
  unfold rowTerm
  rw [dif_pos n.isLt]

/-! ## The head -/

/-- What the last point leaves in the output's buffer is the pooled head of the five arrays. -/
theorem out2_value (c : Dev nD) (h : 24 < cfg2.N) :
    (outsAt2 V c 24 h).1
      = Cert.Spec.poolK (V c main_v38) (V c main_v31) (V c main_v45) (V c main_arg10) (V c main_arg11) := by
  funext i
  obtain ⟨g, z, rfl⟩ : ∃ (g : Fin 256) (z : Fin 1), i = ix2 g z := ⟨i 0, i 1, eq_ix2 i⟩
  rw [out2_last V c h]
  refine (pay2_head_apply (outsAt2 V c 24 h).2 (cntBlk V c ⟨24, h⟩) (wBlk V c ⟨24, h⟩) (bBlk V c ⟨24, h⟩) g z).trans ?_
  show _ = Cert.Spec.headAt (fun j => ∑ n : Fin 50000, memArr V c (ix2 n (j 0)) * featArr V c (ix2 n (j 1)))
    (fun g => cntArr V c (ix2 g 0)) (wArr V c) (bArr V c) g
  unfold Cert.Spec.headAt
  refine congrArg₂ max (congrArg₂ (· + ·) (Finset.sum_congr rfl fun k _ => ?_) (bBlk_apply V c _ 0)) rfl
  rw [acc_last V c g k h, cntBlk_apply, wBlk_apply]

/-! ## The result array

The output window's one block is the whole array and it is written back once, after the last point; so the array ends
holding what the last point left in the output's buffer, which is the pooled head. -/

/-- The result array after the region is the pooled head of the five arrays the region was entered with. -/
theorem final2 (c : Dev nD) :
    (dat2 (F := Ideal) V c).arrAt 5 cfg2.N
      = Cert.Spec.poolK (V c main_v38) (V c main_v31) (V c main_v45) (V c main_arg10) (V c main_arg11) :=
  (arr2_last V c last2_lt).trans (out2_value V c last2_lt)

end Cert.KernelIdeal.Val

end
-- ==== Proof.Val.PoolLaw.lean ====
/-
  A graph's member rows summed two ways, over the extended reals.

  Every node n carries a 32-bit graph id b(n) and a feature row h(n, ·). For a graph g below 256 and a feature k:

  * the matrix form multiplies a 0/1 membership matrix against the features, Σₙ m(n, g) · h(n, k) over all nodes,
    where m(n, g) is the word comparison "b(n) = g" converted to a number: 1 where the id equals g, 0 elsewhere;
  * the scatter form starts from zero and adds row h(n, ·) into row b(n) of a 256-row array, b(n) read as a SIGNED
    integer, a row whose id falls outside [0, 256) added nowhere.

  They agree for EVERY extended-real h, infinities included, because 1 · x = x and 0 · x = 0 hold for every extended
  real x, and because "the word b(n) equals the word of g" and "b(n) read signed is the integer g" say the same of a
  g below 2³¹: an id outside [0, 256), a negative one included, matches no g on either side.

  The head built from the member sums and the member counts is then the same function in both forms; the counts are
  the same array on both sides, once as a vector and once as a column.
-/
import proofs.«403164_j18090402251169_3_alg».proof.Proof.Val.Spec
import Idealize.ShloMosaic.Lib.IdealHost
import Idealize.ShloMosaic.Lib.Pipeline.Value
import Idealize.ShloMosaic.Lib.StableHlo.Predicate

noncomputable section

namespace Cert.PoolLaw

open Idealize.ShloMosaic Idealize.ShloMosaic.ValueIdx
open Cert.ReferenceIdeal

/-! ## Where an update of a scatter lands, in general -/

/-- An update element lands on operand element i exactly when, on every operand axis, the window's start (read signed,
    not clamped) plus the window coordinate IS i's coordinate: the "inside the operand" test of the landing index is
    then i's own bound. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i hin
    rw [Option.some.injEq]
    constructor
    · intro e a
      have ea := congrArg (fun q : s.Idx => ((q a).val : ℤ)) e
      simp only at ea
      have h0 := (hin a).1
      omega
    · intro e
      funext a
      refine Fin.ext ?_
      have ea := e a
      show (d.start j idx a + (d.window j a : ℤ)).toNat = (i a).val
      omega
  · rename_i hout
    constructor
    · intro e
      exact absurd e (by simp)
    · intro e
      exfalso
      apply hout
      intro a
      have ea := e a
      have hlt := (i a).isLt
      constructor <;> omega

/-! ## The scatter of 50000 rows of 128 into 256 rows: one scattered axis, the row; the window is the whole row -/

/-- The scatter's dimension numbers: the update's axis 1 is the window, the operand's axis 0 is the scattered one,
    and each row of the one-column index array holds one start. -/
abbrev dS : ScatterDims S256x128 S50000x1 S50000x128 := scatter_S256x128_S50000x1_S50000x128_1_0_0_1

/-- On the row axis the window of update element (n, f) starts at the index column's entry n, read signed. -/
theorem start_row {w : Nat} (idx : IVec S50000x1 w) (n : Fin 50000) (f : Fin 128) :
    dS.start (ix2 n f) idx 0 = (idx (ix2 n (0 : Fin 1))).toInt := by
  unfold ScatterDims.start
  rw [dif_pos (show (0 : Fin 2) ∈ dS.scatterDimsToOperandDims from List.mem_singleton.mpr rfl)]
  refine congrArg (fun q => (idx q).toInt) ?_
  funext b
  refine Fin.ext ?_
  match b with
  | ⟨0, _⟩ => rfl
  | ⟨1, _⟩ => rfl

/-- On the feature axis every window starts at 0: no index names that axis. -/
theorem start_col {w : Nat} (idx : IVec S50000x1 w) (j : S50000x128.Idx) : dS.start j idx 1 = 0 := by
  unfold ScatterDims.start
  rw [dif_neg (by decide)]

/-- The row axis is inserted: the window has no extent along it. -/
theorem window_row (j : S50000x128.Idx) : dS.window j 0 = 0 := by
  unfold ScatterDims.window
  rw [dif_neg (by decide)]

/-- Along the feature axis the window coordinate of update element (n, f) is f. -/
theorem window_col (n : Fin 50000) (f : Fin 128) : dS.window (ix2 n f) 1 = f.val := by
  unfold ScatterDims.window
  rw [dif_pos (by decide)]
  rfl

/-- Update element (n, f) lands on (g, k) exactly when row n's start, read signed, is g and f is k. A start outside
    [0, 256) equals no g, so such a row lands nowhere. -/
theorem lands_iff {w : Nat} (idx : IVec S50000x1 w) (n : Fin 50000) (f : Fin 128) (g : Fin 256) (k : Fin 128) :
    dS.resultIdx? (ix2 n f) idx = some (ix2 g k) ↔ (idx (ix2 n (0 : Fin 1))).toInt = (g.val : ℤ) ∧ f = k := by
  rw [resultIdx?_eq_some_iff]
  constructor
  · intro e
    have e0 := e 0
    have e1 := e 1
    rw [start_row, window_row] at e0
    rw [start_col, window_col] at e1
    have e0' : (idx (ix2 n (0 : Fin 1))).toInt + ((0 : ℕ) : ℤ) = (g.val : ℤ) := e0
    have e1' : (0 : ℤ) + ((f.val : ℕ) : ℤ) = (k.val : ℤ) := e1
    exact ⟨by omega, Fin.ext (by omega)⟩
  · rintro ⟨e0, rfl⟩ a
    match a with
    | ⟨0, _⟩ =>
      show dS.start (ix2 n f) idx 0 + ((dS.window (ix2 n f) 0 : ℕ) : ℤ) = (g.val : ℤ)
      rw [start_row, window_row]
      omega
    | ⟨1, _⟩ =>
      show dS.start (ix2 n f) idx 1 + ((dS.window (ix2 n f) 1 : ℕ) : ℤ) = (f.val : ℤ)
      rw [start_col, window_col]
      omega

/-! ## The two member sums, each as a sum over the nodes of "the row's feature where the id is g, else 0" -/

/-- The graph ids laid out as a one-column array read the id of the row. -/
theorem col_apply (dims : Fin S50000.rank → Fin S50000x1.rank) (hd : dims 0 = 0) (hb : S50000.BroadcastsInDim S50000x1 dims)
    (batch : IVec S50000 32) (n : Fin 50000) (c : Fin 1) :
    broadcastInDim S50000x1 dims hb batch (ix2 n c) = batch (ix1 n) := by
  refine broadcastInDim_apply _ _ _ _ (ix1 n) ?_
  intro a
  obtain rfl : a = 0 := Subsingleton.elim _ _
  rw [hd]
  rfl

/-- A 32-bit word equals the word of a g below 256 exactly when, read signed, it is the integer g. -/
theorem eq_ofNat_iff_toInt (b : BitVec 32) (g : Fin 256) : b = BitVec.ofNat 32 g.val ↔ b.toInt = (g.val : ℤ) := by
  have hg : (BitVec.ofNat 32 g.val).toInt = (g.val : ℤ) :=
    StableHlo.Predicate.toInt_ofNat_small g.val (by have := g.isLt; omega)
  constructor
  · rintro rfl
    exact hg
  · intro e
    exact BitVec.eq_of_toInt_eq (e.trans hg.symm)

/-- The membership matrix at (n, g): 1 where node n's id is the word of g, 0 elsewhere. -/
theorem onehot_apply (batch : IVec S50000 32) (n : Fin 50000) (g : Fin 256) :
    Cert.Spec.onehot batch (ix2 n g) = if batch (ix1 n) = BitVec.ofNat 32 g.val then 1 else 0 := by
  unfold Cert.Spec.onehot
  show (((IntOp.cmpi .eq (broadcastInDim _ _ _ (broadcastInDim _ _ _ batch) (ix2 n g))
    (broadcastInDim _ _ _ (broadcastInDim _ _ _ (iotaInDim _ 32 0)) (ix2 n g))).toNat : ℝ) : EReal) = _
  rw [broadcastInDim_apply _ _ _ (ix2 n g) (ix2 n (0 : Fin 1)) (by intro a; match a with | ⟨0, _⟩ => rfl | ⟨1, _⟩ => rfl)]
  rw [broadcastInDim_apply _ _ _ (ix2 n (0 : Fin 1)) (ix1 n) (by intro a; match a with | ⟨0, _⟩ => rfl)]
  rw [broadcastInDim_apply _ _ (broadcastInDim _ _ _ (iotaInDim _ 32 0)) (ix2 n g) (ix2 (0 : Fin 1) g)
    (by intro a; match a with | ⟨0, _⟩ => rfl | ⟨1, _⟩ => rfl)]
  rw [broadcastInDim_apply _ _ _ (ix2 (0 : Fin 1) g) (ix1 g) (by intro a; match a with | ⟨0, _⟩ => rfl)]
  rw [iotaInDim_apply]
  show ((((IntOp.cmpi .eq (batch (ix1 n)) (BitVec.ofNat 32 g.val)).toNat : ℝ)) : EReal) = _
  by_cases hb : batch (ix1 n) = BitVec.ofNat 32 g.val
  · rw [if_pos hb, hb]
    simp [IntOp.cmpi]
  · rw [if_neg hb]
    simp [IntOp.cmpi, hb]

/-- The matrix form of the member sum: each node contributes its feature where its id is g, and 0 elsewhere —
    1 · x = x and 0 · x = 0 at every extended real x. -/
theorem matrixSum_eq (h : FVec Ideal S50000x128 .f32) (batch : IVec S50000 32) (g : Fin 256) (k : Fin 128) :
    (∑ n : Fin 50000, Cert.Spec.onehot batch (ix2 n g) * h (ix2 n k))
      = ∑ n : Fin 50000, if (batch (ix1 n)).toInt = (g.val : ℤ) then h (ix2 n k) else 0 := by
  refine Finset.sum_congr rfl fun n _ => ?_
  rw [onehot_apply]
  by_cases hb : batch (ix1 n) = BitVec.ofNat 32 g.val
  · rw [if_pos hb, if_pos ((eq_ofNat_iff_toInt _ g).mp hb), one_mul]
  · rw [if_neg hb, if_neg (fun e => hb ((eq_ofNat_iff_toInt _ g).mpr e)), zero_mul]

/-- The scatter form of the member sum: from zero, the updates landing on (g, k) are the elements (n, k) of the rows
    whose id, read signed, is g. -/
theorem segsum_apply (h : FVec Ideal S50000x128 .f32) (batch : IVec S50000 32) (g : Fin 256) (k : Fin 128) :
    Cert.Spec.segsum h batch (ix2 g k)
      = ∑ n : Fin 50000, if (batch (ix1 n)).toInt = (g.val : ℤ) then h (ix2 n k) else 0 := by
  unfold Cert.Spec.segsum
  show Ideal.hostScatterAdd dS _ _ h (ix2 g k) = _
  unfold Ideal.hostScatterAdd
  rw [broadcastInDim_scalar_apply, constant_apply, Ideal.ofBits_zero_f32, zero_add, Finset.sum_filter, sum_idx2]
  refine Finset.sum_congr rfl fun n _ => ?_
  simp only [lands_iff]
  rw [col_apply _ rfl]
  by_cases hb : (batch (ix1 n)).toInt = (g.val : ℤ)
  · simp [hb]
  · simp [hb]

/-! ## The law -/

/-- THE MEMBER SUM, TWO WAYS: the membership matrix against the features is the scatter-add of the rows over the ids,
    for every extended-real feature array and every 32-bit ids. -/
theorem memberSum_eq (h : FVec Ideal Cert.ReferenceIdeal.S50000x128 .f32) (batch : IVec Cert.ReferenceIdeal.S50000 32)
    (g : Fin 256) (k : Fin 128) :
    (∑ n : Fin 50000, Cert.Spec.onehot batch (ix2 n g) * h (ix2 n k)) = Cert.Spec.segsum h batch (ix2 g k) := by
  rw [matrixSum_eq, segsum_apply]

/-- The counts as a column read the counts as a vector: a 256-vector and a 256 × 1 array have the same row-major
    order. -/
theorem countsCol_apply (batch : IVec Cert.ReferenceIdeal.S50000 32) (g : Fin 256) :
    Cert.Spec.countsCol batch (ix2 g 0) = Cert.Spec.counts batch (ix1 g) := by
  unfold Cert.Spec.countsCol
  refine shapeCast_apply _ _ _ (ix1 g) ?_
  rw [Shape.rowMajor_val_one, Shape.rowMajor_val_two]
  show g.val = g.val * 1 + 0
  omega

/-- THE HEAD, TWO WAYS: built on the matrix form of the member sums and the count column, or on the scatter form and
    the count vector, it is the same function of the features, the ids, the weight row and the bias. -/
theorem pool_law (h : FVec Ideal Cert.ReferenceIdeal.S50000x128 .f32) (batch : IVec Cert.ReferenceIdeal.S50000 32)
    (wl : (⟨2, ![1, 128]⟩ : Shape).Idx → EReal) (bl : (⟨1, ![1]⟩ : Shape).Idx → EReal) :
    Cert.Spec.poolK (Cert.Spec.onehot batch) h (Cert.Spec.countsCol batch) wl bl = Cert.Spec.poolR h batch wl bl := by
  have e1 : (fun j : (⟨2, ![256, 128]⟩ : Shape).Idx =>
      ∑ n : Fin 50000, Cert.Spec.onehot batch (ix2 n (j 0)) * h (ix2 n (j 1))) = Cert.Spec.segsum h batch := by
    funext j
    exact (memberSum_eq h batch (j 0) (j 1)).trans (congrArg (Cert.Spec.segsum h batch) (eq_ix2 j).symm)
  have e2 : (fun g : Fin 256 => Cert.Spec.countsCol batch (ix2 g 0)) = fun g => Cert.Spec.counts batch (ix1 g) :=
    funext fun g => countsCol_apply batch g
  funext i
  exact congrArg₂ (fun s c => Cert.Spec.headAt s c wl bl (i 0)) e1 e2

end Cert.PoolLaw

end
-- ==== Proof.Val.RefRead.lean ====
/-
  The reference program's run, read as the shared specification.

  Each stage of the reference is a function of the raw argument arrays.  The edge aggregations, the member sums and the
  member counts are carried whole: they are literally the same terms as the specification's.  The dense stages are read
  index by index: a product against a transposed weight matrix is the sum over k of row n of the left operand against
  row o of the weight, the bias row is broadcast over the nodes, and max(·, 0) is the maximum with a broadcast zero.
  The reference adds the bias before the second product, (a + b) + c; the specification after, (a + c) + b: one
  commutation of addition in the extended reals per layer.
-/
import proofs.«403164_j18090402251169_3_alg».proof.Proof.Gen.ReferenceIdeal.Run
import proofs.«403164_j18090402251169_3_alg».proof.Proof.Gen.ReferenceIdeal.Read
import proofs.«403164_j18090402251169_3_alg».proof.Proof.Val.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

variable (x0 : (⟨S50000x96, .f32⟩ : BufTy).Contents (Elt Ideal)) (x1 : (⟨S2x800000, .i32⟩ : BufTy).Contents (Elt Ideal))
  (x2 : (⟨S50000, .i32⟩ : BufTy).Contents (Elt Ideal)) (x3 : (⟨S800000, .f32⟩ : BufTy).Contents (Elt Ideal))
  (x4 : (⟨S128x96, .f32⟩ : BufTy).Contents (Elt Ideal)) (x5 : (⟨S128, .f32⟩ : BufTy).Contents (Elt Ideal))
  (x6 : (⟨S128x96, .f32⟩ : BufTy).Contents (Elt Ideal)) (x7 : (⟨S128x128, .f32⟩ : BufTy).Contents (Elt Ideal))
  (x8 : (⟨S128, .f32⟩ : BufTy).Contents (Elt Ideal)) (x9 : (⟨S128x128, .f32⟩ : BufTy).Contents (Elt Ideal))
  (x10 : (⟨S1x128, .f32⟩ : BufTy).Contents (Elt Ideal)) (x11 : (⟨S1, .f32⟩ : BufTy).Contents (Elt Ideal))

/-! ## The stages carried whole -/

/-- The wrapped source ids as a column: the same term as the specification's. -/
theorem v9_eq : Read.val_main_v9 (F := Ideal) x1 = Cert.Spec.srcCol x1 := by
  unfold Read.val_main_v9 Read.val_main_v8 Read.val_main_v5 Read.val_main_v7 Read.val_main_v1 Read.val_main_v0
    Read.val_main_v4 Read.val_main_v6 Read.val_main_c Read.val_main_c_0 Cert.Spec.srcCol
  rfl

/-- The target ids as a column. -/
theorem v15_eq : Read.val_main_v15 (F := Ideal) x1 = Cert.Spec.dstCol x1 := by
  unfold Read.val_main_v15 Read.val_main_v3 Read.val_main_v2 Cert.Spec.dstCol
  rfl

/-- The 96-feature aggregation is the specification's. -/
theorem v16_eq : Read.val_main_v16 (F := Ideal) x0 x1 x3 = Cert.Spec.agg96 x0 x1 x3 := by
  unfold Read.val_main_v16 Read.val_main_v13 Read.val_main_v10 Read.val_main_v12 Read.val_main_v11 Read.val_main_v14
    Read.val_main_cst Cert.Spec.agg96
  rw [v9_eq, v15_eq]

/-! ## The first layer -/

/-- The first layer's node features are the specification's. -/
theorem v25_eq : Read.val_main_v25 (F := Ideal) x0 x1 x3 x4 x5 x6 = Cert.Spec.layer1 x0 x1 x3 x4 x5 x6 := by
  funext i
  obtain ⟨n, o, rfl⟩ : ∃ (n : Fin 50000) (o : Fin 128), i = ix2 n o := ⟨i 0, i 1, eq_ix2 i⟩
  have e1 : ∀ k : Fin 96, Read.lidx_main_v18 (ix2 n o) k = ix2 n k := fun k =>
    funext fun a => Fin.ext (by match a with | ⟨0, _⟩ => rfl | ⟨1, _⟩ => rfl)
  have e2 : ∀ k : Fin 96, Read.idx_main_v17 (Read.ridx_main_v18 (ix2 n o) k) = ix2 o k := fun k =>
    funext fun a => Fin.ext (by match a with | ⟨0, _⟩ => rfl | ⟨1, _⟩ => rfl)
  have e3 : ∀ k : Fin 96, Read.lidx_main_v23 (ix2 n o) k = ix2 n k := fun k =>
    funext fun a => Fin.ext (by match a with | ⟨0, _⟩ => rfl | ⟨1, _⟩ => rfl)
  have e4 : ∀ k : Fin 96, Read.idx_main_v22 (Read.ridx_main_v23 (ix2 n o) k) = ix2 o k := fun k =>
    funext fun a => Fin.ext (by match a with | ⟨0, _⟩ => rfl | ⟨1, _⟩ => rfl)
  have e5 : Read.idx_main_v19 (Read.idx_main_v20 (ix2 n o)) = ix1 o :=
    funext fun a => Fin.ext (by match a with | ⟨0, _⟩ => rfl)
  rw [Read.val_main_v25_apply, Read.val_main_v24_apply, Read.val_main_v21_apply, Read.val_main_v18_apply,
    Read.val_main_v20_apply, Read.val_main_v19_apply, Read.val_main_v23_apply, Read.val_main_call0_v0_apply,
    Read.val_main_call0_cst_apply, v16_eq]
  simp only [Read.val_main_v17_apply, Read.val_main_v22_apply, e1, e2, e3, e4, e5, Ideal.addf_def, Ideal.maximumf_def,
    Ideal.ofBits_def, Ideal.ofBits_zero_f32]
  rw [Cert.Spec.layer1, Cert.Spec.denseRelu_ix2, Cert.Spec.denseAt, add_right_comm]

/-! ## The second layer -/

/-- The wrapped source ids, second use: the same column. -/
theorem v31_eq : Read.val_main_v31 (F := Ideal) x1 = Cert.Spec.srcCol x1 := by
  unfold Read.val_main_v31 Read.val_main_v30 Read.val_main_v27 Read.val_main_v29 Read.val_main_v1 Read.val_main_v0
    Read.val_main_v26 Read.val_main_v28 Read.val_main_c_1 Read.val_main_c_2 Cert.Spec.srcCol
  rfl

/-- The target ids, second use: the same column. -/
theorem v37_eq : Read.val_main_v37 (F := Ideal) x1 = Cert.Spec.dstCol x1 := by
  unfold Read.val_main_v37 Read.val_main_v3 Read.val_main_v2 Cert.Spec.dstCol
  rfl

/-- The 128-feature aggregation of the first layer's features is the specification's. -/
theorem v38_eq : Read.val_main_v38 (F := Ideal) x0 x1 x3 x4 x5 x6
    = Cert.Spec.agg128 (Read.val_main_v25 (F := Ideal) x0 x1 x3 x4 x5 x6) x1 x3 := by
  unfold Read.val_main_v38 Read.val_main_v35 Read.val_main_v32 Read.val_main_v34 Read.val_main_v33 Read.val_main_v36
    Read.val_main_cst_3 Cert.Spec.agg128
  rw [v31_eq, v37_eq]

/-- The second layer's node features are the specification's, over the first layer's. -/
theorem v46_eq : Read.val_main_v46 (F := Ideal) x0 x1 x3 x4 x5 x6 x7 x8 x9
    = Cert.Spec.layer2 (Cert.Spec.layer1 x0 x1 x3 x4 x5 x6) x1 x3 x7 x8 x9 := by
  funext i
  obtain ⟨n, o, rfl⟩ : ∃ (n : Fin 50000) (o : Fin 128), i = ix2 n o := ⟨i 0, i 1, eq_ix2 i⟩
  have e1 : ∀ k : Fin 128, Read.lidx_main_v40 (ix2 n o) k = ix2 n k := fun k =>
    funext fun a => Fin.ext (by match a with | ⟨0, _⟩ => rfl | ⟨1, _⟩ => rfl)
  have e2 : ∀ k : Fin 128, Read.idx_main_v39 (Read.ridx_main_v40 (ix2 n o) k) = ix2 o k := fun k =>
    funext fun a => Fin.ext (by match a with | ⟨0, _⟩ => rfl | ⟨1, _⟩ => rfl)
  have e3 : ∀ k : Fin 128, Read.lidx_main_v45 (ix2 n o) k = ix2 n k := fun k =>
    funext fun a => Fin.ext (by match a with | ⟨0, _⟩ => rfl | ⟨1, _⟩ => rfl)
  have e4 : ∀ k : Fin 128, Read.idx_main_v44 (Read.ridx_main_v45 (ix2 n o) k) = ix2 o k := fun k =>
    funext fun a => Fin.ext (by match a with | ⟨0, _⟩ => rfl | ⟨1, _⟩ => rfl)
  have e5 : Read.idx_main_v41 (Read.idx_main_v42 (ix2 n o)) = ix1 o :=
    funext fun a => Fin.ext (by match a with | ⟨0, _⟩ => rfl)
  rw [Read.val_main_v46_apply, Read.val_main_v43_apply, Read.val_main_v40_apply, Read.val_main_v42_apply,
    Read.val_main_v41_apply, Read.val_main_v45_apply, v38_eq, v25_eq]
  simp only [Read.val_main_v39_apply, Read.val_main_v44_apply, e1, e2, e3, e4, e5, Ideal.addf_def]
  rw [Cert.Spec.layer2, Cert.Spec.dense_ix2, Cert.Spec.denseAt, add_right_comm]

/-! ## The pooled head -/

/-- The member sums are the specification's scatter-add of the second layer's features. -/
theorem v49_eq : Read.val_main_v49 (F := Ideal) x0 x1 x2 x3 x4 x5 x6 x7 x8 x9
    = Cert.Spec.segsum (Read.val_main_v46 (F := Ideal) x0 x1 x3 x4 x5 x6 x7 x8 x9) x2 := by
  unfold Read.val_main_v49 Read.val_main_v47 Read.val_main_cst_4 Read.val_main_v48 Cert.Spec.segsum
  rfl

/-- The member counts, at least one, are the specification's. -/
theorem v55_eq : Read.val_main_v55 (F := Ideal) x2 = Cert.Spec.counts x2 := by
  unfold Read.val_main_v55 Read.val_main_v53 Read.val_main_v51 Read.val_main_cst_6 Read.val_main_v52 Read.val_main_v50
    Read.val_main_cst_5 Read.val_main_v54 Read.val_main_cst_7 Cert.Spec.counts
  rfl

/-- The reference's last stage is the specification's result. -/
theorem v64_eq : Read.val_main_v64 (F := Ideal) x0 x1 x2 x3 x4 x5 x6 x7 x8 x9 x10 x11
    = Cert.Spec.resultR x0 x1 x2 x3 x4 x5 x6 x7 x8 x9 x10 x11 := by
  funext i
  obtain ⟨g, z, rfl⟩ : ∃ (g : Fin 256) (z : Fin 1), i = ix2 g z := ⟨i 0, i 1, eq_ix2 i⟩
  obtain rfl : z = 0 := Subsingleton.elim _ _
  have e1 : ∀ k : Fin 128, Read.lidx_main_v60 (ix2 g (0 : Fin 1)) k = ix2 g k := fun k =>
    funext fun a => Fin.ext (by match a with | ⟨0, _⟩ => rfl | ⟨1, _⟩ => rfl)
  have e2 : ∀ k : Fin 128, Read.idx_main_v59 (Read.ridx_main_v60 (ix2 g (0 : Fin 1)) k) = ix2 (0 : Fin 1) k := fun k =>
    funext fun a => Fin.ext (by match a with | ⟨0, _⟩ => rfl | ⟨1, _⟩ => rfl)
  have e3 : ∀ k : Fin 128, Read.idx_main_v56 (Read.idx_main_v57 (ix2 g k)) = ix1 g := fun k =>
    funext fun a => Fin.ext (by match a with | ⟨0, _⟩ => rfl)
  have e4 : Read.idx_main_v61 (Read.idx_main_v62 (ix2 g (0 : Fin 1))) = ix1 (0 : Fin 1) :=
    funext fun a => Fin.ext (by match a with | ⟨0, _⟩ => rfl)
  rw [Read.val_main_v64_apply, Read.val_main_v63_apply, Read.val_main_v60_apply, Read.val_main_v62_apply,
    Read.val_main_v61_apply, Read.val_main_call1_v0_apply, Read.val_main_call1_cst_apply]
  simp only [Read.val_main_v58_apply, Read.val_main_v57_apply, Read.val_main_v56_apply, Read.val_main_v59_apply,
    v49_eq, v55_eq, v46_eq, e1, e2, e3, e4, Ideal.addf_def, Ideal.maximumf_def, Ideal.hostDivf_def, Ideal.ofBits_def,
    Ideal.ofBits_zero_f32]
  rfl

/-! ## The run -/

/-- On every device the reference's result buffer ends at the specification's result of the launch contents. -/
theorem ref_result (m : (ℓ : Loc nD τ sig) → Buf (Elt Ideal) ℓ) (c : Dev nD) :
    Cert.ReferenceIdeal.Value.res_main_v64 m c
      = Cert.Spec.resultR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) :=
  (Read.val_main_v64_eq m c).trans (v64_eq _ _ _ _ _ _ _ _ _ _ _ _)

end Cert.ReferenceIdeal.RefValue

end
-- ==== Proof.Val.KernelHost.lean ====
/-
  The kernel's host stretches, read as the shared specification, and the three regions composed.

  Between its three regions the kernel program runs the same whole-array operations as the reference: before the first
  region the 96-feature edge aggregation of the input features; before the second the 128-feature aggregation of what the
  first region left; before the third the 0/1 membership matrix of the graph ids and the member counts as a column.
  Each is literally the specification's term of the launch contents (or of the earlier region's output).  With each
  region's output given as the specification's dense layer, dense layer and pooled head of what the region found, the
  last region's output is the specification's result in the kernel's form.
-/
import proofs.«403164_j18090402251169_3_alg».proof.Proof.FrameKI.Run
import proofs.«403164_j18090402251169_3_alg».proof.Proof.Val.Spec

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg) (c : Dev nD)

/-! ## Before the first region -/

set_option maxHeartbeats 4000000 in
/-- The first region finds the 96-feature aggregation of the launched features. -/
theorem E1_v16 : E1 m ρ c main_v16
    = Cert.Spec.agg96 (m ((c : Thread nD τ).loc main_arg0)) (m ((c : Thread nD τ).loc main_arg1)) (m ((c : Thread nD τ).loc main_arg3)) := by
  show StableHlo.after hostOps0 (W0 m ρ c) (Proc.devRef .tc main_v16) = _
  after_results_simp
  rfl

/-- No operation before the first region writes an argument. -/
theorem E1_arg0 : E1 m ρ c main_arg0 = m ((c : Thread nD τ).loc main_arg0) :=
  StableHlo.after_of_writes_sub hostOps0 _ hostOps0_writes (by decide)
theorem E1_arg4 : E1 m ρ c main_arg4 = m ((c : Thread nD τ).loc main_arg4) :=
  StableHlo.after_of_writes_sub hostOps0 _ hostOps0_writes (by decide)
theorem E1_arg5 : E1 m ρ c main_arg5 = m ((c : Thread nD τ).loc main_arg5) :=
  StableHlo.after_of_writes_sub hostOps0 _ hostOps0_writes (by decide)
theorem E1_arg6 : E1 m ρ c main_arg6 = m ((c : Thread nD τ).loc main_arg6) :=
  StableHlo.after_of_writes_sub hostOps0 _ hostOps0_writes (by decide)

/-! ## Before the second region -/

set_option maxHeartbeats 4000000 in
/-- The source row of the edge list, flattened: written before the first region, untouched by it. -/
theorem W2_v1 : W2 m ρ c (Proc.devRef .tc main_v1)
    = shapeCast S800000 (extractStridedSlice S1x800000 ![0, 0] (m ((c : Thread nD τ).loc main_arg1)) slices_S2x800000_S1x800000_0_0)
        shapeCasts_S1x800000_S800000 :=
  (W2_of_ne m ρ c main_v1 (by decide)).trans (by
    show StableHlo.after hostOps0 (W0 m ρ c) (Proc.devRef .tc main_v1) = _
    after_results_simp
    rfl)

set_option maxHeartbeats 4000000 in
/-- The target row of the edge list, flattened: written before the first region, untouched by it. -/
theorem W2_v3 : W2 m ρ c (Proc.devRef .tc main_v3)
    = shapeCast S800000 (extractStridedSlice S1x800000 ![1, 0] (m ((c : Thread nD τ).loc main_arg1)) slices_S2x800000_S1x800000_1_0)
        shapeCasts_S1x800000_S800000 :=
  (W2_of_ne m ρ c main_v3 (by decide)).trans (by
    show StableHlo.after hostOps0 (W0 m ρ c) (Proc.devRef .tc main_v3) = _
    after_results_simp
    rfl)

/-- The edge weights are as launched when the first region ends. -/
theorem W2_arg3 : W2 m ρ c (Proc.devRef .tc main_arg3) = m ((c : Thread nD τ).loc main_arg3) :=
  (W2_of_ne m ρ c main_arg3 (by decide)).trans (StableHlo.after_of_writes_sub hostOps0 _ hostOps0_writes (by decide))

set_option maxHeartbeats 4000000 in
/-- The second region finds the 128-feature aggregation of what the first region left. -/
theorem E3_v30 : E3 m ρ c main_v30
    = Cert.Spec.agg128 (E2 m ρ c main_v17) (m ((c : Thread nD τ).loc main_arg1)) (m ((c : Thread nD τ).loc main_arg3)) := by
  show StableHlo.after hostOps1 (W2 m ρ c) (Proc.devRef .tc main_v30) = _
  after_results_simp
  rw [W2_v1, W2_v3, W2_arg3]
  rfl

/-- No operation before the second region writes the first region's output. -/
theorem E3_v17 : E3 m ρ c main_v17 = E2 m ρ c main_v17 :=
  StableHlo.after_of_writes_sub hostOps1 _ hostOps1_writes (by decide)

/-- The second layer's weights and bias are as launched when the second region begins. -/
theorem E3_arg7 : E3 m ρ c main_arg7 = m ((c : Thread nD τ).loc main_arg7) :=
  (StableHlo.after_of_writes_sub hostOps1 _ hostOps1_writes (by decide)).trans
    ((W2_of_ne m ρ c main_arg7 (by decide)).trans (StableHlo.after_of_writes_sub hostOps0 _ hostOps0_writes (by decide)))
theorem E3_arg8 : E3 m ρ c main_arg8 = m ((c : Thread nD τ).loc main_arg8) :=
  (StableHlo.after_of_writes_sub hostOps1 _ hostOps1_writes (by decide)).trans
    ((W2_of_ne m ρ c main_arg8 (by decide)).trans (StableHlo.after_of_writes_sub hostOps0 _ hostOps0_writes (by decide)))
theorem E3_arg9 : E3 m ρ c main_arg9 = m ((c : Thread nD τ).loc main_arg9) :=
  (StableHlo.after_of_writes_sub hostOps1 _ hostOps1_writes (by decide)).trans
    ((W2_of_ne m ρ c main_arg9 (by decide)).trans (StableHlo.after_of_writes_sub hostOps0 _ hostOps0_writes (by decide)))

/-! ## Before the third region -/

/-- A buffer no region stages and no host operation writes is as launched when the second region ends. -/
theorem W4_arg2 : W4 m ρ c (Proc.devRef .tc main_arg2) = m ((c : Thread nD τ).loc main_arg2) :=
  (W4_of_ne m ρ c main_arg2 (by decide)).trans ((StableHlo.after_of_writes_sub hostOps1 _ hostOps1_writes (by decide)).trans
    ((W2_of_ne m ρ c main_arg2 (by decide)).trans (StableHlo.after_of_writes_sub hostOps0 _ hostOps0_writes (by decide))))

set_option maxHeartbeats 4000000 in
/-- The third region finds the 0/1 membership matrix of the launched graph ids. -/
theorem E5_v38 : E5 m ρ c main_v38 = Cert.Spec.onehot (m ((c : Thread nD τ).loc main_arg2)) := by
  show StableHlo.after hostOps2 (W4 m ρ c) (Proc.devRef .tc main_v38) = _
  after_results_simp
  rw [W4_arg2]
  rfl

set_option maxHeartbeats 4000000 in
/-- The third region finds the member counts, at least one, as a column. -/
theorem E5_v45 : E5 m ρ c main_v45 = Cert.Spec.countsCol (m ((c : Thread nD τ).loc main_arg2)) := by
  show StableHlo.after hostOps2 (W4 m ρ c) (Proc.devRef .tc main_v45) = _
  after_results_simp
  rw [W4_arg2]
  rfl

/-- No operation before the third region writes the second region's output. -/
theorem E5_v31 : E5 m ρ c main_v31 = E4 m ρ c main_v31 :=
  StableHlo.after_of_writes_sub hostOps2 _ hostOps2_writes (by decide)

/-- The head's weight row and bias are as launched when the third region begins. -/
theorem E5_arg10 : E5 m ρ c main_arg10 = m ((c : Thread nD τ).loc main_arg10) :=
  (StableHlo.after_of_writes_sub hostOps2 _ hostOps2_writes (by decide)).trans
    ((W4_of_ne m ρ c main_arg10 (by decide)).trans ((StableHlo.after_of_writes_sub hostOps1 _ hostOps1_writes (by decide)).trans
      ((W2_of_ne m ρ c main_arg10 (by decide)).trans (StableHlo.after_of_writes_sub hostOps0 _ hostOps0_writes (by decide)))))
theorem E5_arg11 : E5 m ρ c main_arg11 = m ((c : Thread nD τ).loc main_arg11) :=
  (StableHlo.after_of_writes_sub hostOps2 _ hostOps2_writes (by decide)).trans
    ((W4_of_ne m ρ c main_arg11 (by decide)).trans ((StableHlo.after_of_writes_sub hostOps1 _ hostOps1_writes (by decide)).trans
      ((W2_of_ne m ρ c main_arg11 (by decide)).trans (StableHlo.after_of_writes_sub hostOps0 _ hostOps0_writes (by decide)))))

/-! ## The regions composed -/

/-- What the first region leaves in its output array. -/
theorem E2_v17 : E2 m ρ c main_v17 = (dat0 (E1 m ρ) c).arrAt 5 cfg0.N := W2_arr m ρ c 5
/-- What the second region leaves in its output array. -/
theorem E4_v31 : E4 m ρ c main_v31 = (dat1 (E3 m ρ) c).arrAt 5 cfg1.N := W4_arr m ρ c 5

/-- With each region's output the specification's layer of what the region found, the last region's output is the
    specification's result of the launch contents, in the kernel's form of the head. -/
theorem kernel_result
    (hf0 : ∀ (V : (c : Dev nD) → (b : Ref sig .tc) → Buf (Elt Ideal) ((c : Thread nD τ).loc b)) (c : Dev nD),
      (dat0 (F := Ideal) V c).arrAt 5 cfg0.N
        = Cert.Spec.denseRelu 50000 96 128 (V c main_v16) (V c main_arg0) (V c main_arg4) (V c main_arg5) (V c main_arg6))
    (hf1 : ∀ (V : (c : Dev nD) → (b : Ref sig .tc) → Buf (Elt Ideal) ((c : Thread nD τ).loc b)) (c : Dev nD),
      (dat1 (F := Ideal) V c).arrAt 5 cfg1.N
        = Cert.Spec.dense 50000 128 128 (V c main_v30) (V c main_v17) (V c main_arg7) (V c main_arg8) (V c main_arg9))
    (hf2 : ∀ (V : (c : Dev nD) → (b : Ref sig .tc) → Buf (Elt Ideal) ((c : Thread nD τ).loc b)) (c : Dev nD),
      (dat2 (F := Ideal) V c).arrAt 5 cfg2.N
        = Cert.Spec.poolK (V c main_v38) (V c main_v31) (V c main_v45) (V c main_arg10) (V c main_arg11)) :
    (dat2 (F := Ideal) (E5 m ρ) c).arrAt 5 cfg2.N
      = Cert.Spec.resultK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) :=
  -- the first region's output is the first layer of the launch contents
  have h0 : (dat0 (F := Ideal) (E1 m ρ) c).arrAt 5 cfg0.N
      = Cert.Spec.layer1 (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) :=
    (hf0 (E1 m ρ) c).trans
      (congr (congr (congr (congr (congrArg (Cert.Spec.denseRelu 50000 96 128) (E1_v16 m ρ c)) (E1_arg0 m ρ c)) (E1_arg4 m ρ c))
        (E1_arg5 m ρ c)) (E1_arg6 m ρ c))
  have h17 := (E2_v17 m ρ c).trans h0
  -- the second region's output is the second layer over it
  have h1 : (dat1 (F := Ideal) (E3 m ρ) c).arrAt 5 cfg1.N
      = Cert.Spec.layer2 (Cert.Spec.layer1 (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)))
          (m ((c : Thread nD τ).loc main_arg1)) (m ((c : Thread nD τ).loc main_arg3))
          (m ((c : Thread nD τ).loc main_arg7)) (m ((c : Thread nD τ).loc main_arg8)) (m ((c : Thread nD τ).loc main_arg9)) :=
    (hf1 (E3 m ρ) c).trans
      (congr (congr (congr (congr (congrArg (Cert.Spec.dense 50000 128 128)
        ((E3_v30 m ρ c).trans (congrArg (fun h => Cert.Spec.agg128 h (m ((c : Thread nD τ).loc main_arg1)) (m ((c : Thread nD τ).loc main_arg3))) h17)))
        ((E3_v17 m ρ c).trans h17)) (E3_arg7 m ρ c)) (E3_arg8 m ρ c)) (E3_arg9 m ρ c))
  -- the third region's output is the pooled head of that
  (hf2 (E5 m ρ) c).trans
    (congr (congr (congr (congr (congrArg Cert.Spec.poolK (E5_v38 m ρ c)) ((E5_v31 m ρ c).trans ((E4_v31 m ρ c).trans h1))) (E5_v45 m ρ c))
      (E5_arg10 m ρ c)) (E5_arg11 m ρ c))

end Cert.KernelIdeal.Val

end
-- ==== Proof.lean ====
/-
  The claims of this certificate, assembled.

  The kernel program is three stretches of host operations around three kernel regions: two dense graph-convolution
  layers (each 25 blocks of 2000 node rows: the aggregated messages against W_rel, the nodes' own features against
  W_root, plus the bias; the first through max(·, 0)) and a pooled head (a 0/1 membership matrix multiplied against the
  node features 2000 rows at a time into a carried accumulator, then, at the last block, divided by the member counts,
  dotted with the head's weight row, plus its bias, through max(·, 0)).  The reference computes the same layers with
  plain products on whole arrays and the member sums by a scatter-add over the graph ids.

  Frames: each kernel region's run is proved region by region and the regions are chained through @main's host
  stretches; the reference's frame is its run with the result dropped.  The idealization rewrote nothing.
  Values at the ideal instance: each region's output array is read off its run as one function of the arrays the
  region found; the host stretches between them are the reference's own operations; the head's two forms of the
  member sum agree because 0 · x = 0 and 1 · x = x for every extended real and a graph id outside [0, 256) is dropped
  by both; so both programs end at one function of the arguments.
-/
import proofs.«403164_j18090402251169_3_alg».proof.Defs
import proofs.«403164_j18090402251169_3_alg».proof.Proof.Gen.Kernel
import proofs.«403164_j18090402251169_3_alg».proof.Proof.Gen.KernelIdeal
import proofs.«403164_j18090402251169_3_alg».proof.Proof.Gen.ReferenceIdeal
import proofs.«403164_j18090402251169_3_alg».proof.Proof.Gen.Pre_finite_inputs
import proofs.«403164_j18090402251169_3_alg».proof.Proof.Gen.ReferenceIdeal.Run
import proofs.«403164_j18090402251169_3_alg».proof.Proof.FrameK.Run
import proofs.«403164_j18090402251169_3_alg».proof.Proof.FrameKI.Run
import proofs.«403164_j18090402251169_3_alg».proof.Proof.Val.Conv0
import proofs.«403164_j18090402251169_3_alg».proof.Proof.Val.Conv1
import proofs.«403164_j18090402251169_3_alg».proof.Proof.Val.Pool
import proofs.«403164_j18090402251169_3_alg».proof.Proof.Val.PoolLaw
import proofs.«403164_j18090402251169_3_alg».proof.Proof.Val.RefRead
import proofs.«403164_j18090402251169_3_alg».proof.Proof.Val.KernelHost
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at one function of the arguments: the kernel's run ends at the specification with
    the head's member sums written against the membership matrix, the reference's at the same with the member sums
    written as a scatter-add, and the two forms agree. -/
theorem algebraic : Cert.algebraic_KernelIdeal_ReferenceIdeal := by
  intro m ρ m' ρ' _ hagree
  refine ⟨fun c => Cert.Spec.resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.kernel_result m ρ c
        Cert.KernelIdeal.Val.final0 Cert.KernelIdeal.Val.final1 Cert.KernelIdeal.Val.final2), (h c).2⟩)
      (Cert.KernelIdeal.Fr.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.RefValue.ref_result, h0, h1, h2, h3, h4, h5, h6, h7, h8, h9, h10, h11]
    exact (Cert.PoolLaw.pool_law _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
